-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S1024x1024 .f32) (main_arg6 : FVec F S1024 .f32) (main_arg7 : FVec F S1024x1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_v33

def fn {F : FTy → Type} [FloatOps F] (main_arg0 : FVec F S4x2048x1024 .f32) (main_arg1 : FVec F S4x2048x1024 .f32) (main_arg2 : IVec S4x2048x2048 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S2048 : Shape := ⟨1, ![2048]⟩
abbrev S1x2048 : Shape := ⟨2, ![1, 2048]⟩
abbrev S8192x1024 : Shape := ⟨2, ![8192, 1024]⟩
abbrev S512x1024 : Shape := ⟨2, ![512, 1024]⟩
abbrev S512x2048 : Shape := ⟨2, ![512, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x2048, .bf16⟩
  | .hbm, ⟨16, _⟩ => ⟨S1x1024, .f32⟩
  | .hbm, ⟨17, _⟩ => ⟨S2048, .f32⟩
  | .hbm, ⟨18, _⟩ => ⟨S1x2048, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1x1024, .f32⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x256x2048, .i32⟩
  | .local _ .vmem, ⟨17, _⟩ => ⟨S1x256x2048, .i32⟩
  | .local _ .vmem, ⟨18, _⟩ => ⟨S1x256x1024, .f32⟩
  | .local _ .vmem, ⟨19, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x2048_d1 : Shape.Concatenates [S1024x1024, S1024x1024] S1024x2048 1
  shapeCasts_S1024_S1x1024 : S1024.ShapeCasts S1x1024
  concatenates_S1024_S1024_S2048_d0 : Shape.Concatenates [S1024, S1024] S2048 0
  shapeCasts_S2048_S1x2048 : S2048.ShapeCasts S1x2048
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  packedbf16_S512x1024_S512x1024_0_0 : (Rect.unit (s := S512x1024) ![0, 0] S512x1024.size inb_S512x1024_S512x1024_0_0).PackedRows (EltTy.packing .bf16)
  slices_S512x2048_o0_1024_S512x1024 : S512x2048.Slices ![0, 1024] S512x1024
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x2048_S512x2048_1_0_0_1_n_n_wf : DotDims.WF S512x1024 S1024x2048 S512x2048 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x2048x1024.size a
  hwx1_3 : ∀ i : grid1.Coords, EltTy.bits .bf16 = 32 ∨ (Rect.block (s := S4x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S4x2048x1024.size a
  hwx1_4 : ∀ i : grid1.Coords, EltTy.bits .bf16 = 32 ∨ (Rect.block (s := S4x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S4x2048x2048.size a
  hwx1_5 : ∀ i : grid1.Coords, EltTy.bits .i32 = 32 ∨ (Rect.block (s := S4x2048x2048) S1x256x2048.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S4x2048x1024.size a
  hwx1_6 : ∀ i : grid1.Coords, EltTy.bits .f32 = 32 ∨ (Rect.block (s := S4x2048x1024) S1x256x1024.size (cc1_transform_6 i) (hinb1_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S1x256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .i32⟩
  | .hbm, ⟨23, _⟩ => ⟨S4x2048x2048, .i32⟩
  | .hbm, ⟨24, _⟩ => ⟨S4x2048x2048, .i1⟩
  | .hbm, ⟨25, _⟩ => ⟨S_, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The function both programs compute, index by index, on the extended reals.

  Cross-attention of a query sequence x against a key/value sequence y, both [4, 2048, 1024]:
    q = x·Wqᵀ + bq,  k = y·Wkᵀ + bk,  v = y·Wvᵀ + bv            (each a linear layer, `lin`)
    score[b,t,s] = -1e9 where mask[b,t,s] = 0, else Σ_d q[b,t,d]·k[b,s,d]                     (`score`)
    p[b,t,·]     = softmax of the row score[b,t,·]: e^(r_s - max r) / Σ_k e^(r_k - max r)
    out[b,t,e]   = Σ_s p[b,t,s]·v[b,s,e] + x[b,t,e]                                              (`attnRow`, `attn`).
  The maximum of a row is the fold of `max` from -∞ over its 2048 entries; sums are finite sums over `Fin n`;
  the quotient is the ideal instance's division. No law beyond reading each operation at an index is needed to join
  the two programs: they differ only in how the sums and rows are laid out (tiles, a fused K/V projection, reshapes).
-/
import Idealize.ShloMosaic.PureOps.Ideal
import Idealize.ShloMosaic.PureOps.Ideal.Laws
import Idealize.ShloMosaic.Lib.ValueIdx
import Mathlib.Data.Finset.Fold

noncomputable section

open scoped BigOperators

namespace Cert.CrossAttn

open Idealize.ShloMosaic Idealize.ShloMosaic.ValueIdx

/-- The fill value of a masked score: the f32 word of -1e9, read as an extended real. -/
def negBig : EReal := Ideal.ofBits .f32 0xCE6E6B28#32
/-- The start of a row maximum: the f32 word of -∞. -/
def negInf : EReal := Ideal.ofBits .f32 0xFF800000#32

/-- A row's maximum: `max` folded from -∞ over the row. -/
def rowMax {n : Nat} (r : Fin n → EReal) : EReal := (Finset.univ : Finset (Fin n)).fold max negInf r

/-- Softmax of a row at position `s`, shifted by the row's maximum. -/
def softmax {n : Nat} (r : Fin n → EReal) (s : Fin n) : EReal :=
  Ideal.div (Ideal.exp (r s - rowMax r)) (∑ k : Fin n, Ideal.exp (r k - rowMax r))

/-- A linear layer `x·Wᵀ + b` (the weight indexed output feature first), at batch `bt`, position `t`, feature `e`. -/
def lin (x : (⟨3, ![4, 2048, 1024]⟩ : Shape).Idx → EReal) (W : (⟨2, ![1024, 1024]⟩ : Shape).Idx → EReal)
    (b : (⟨1, ![1024]⟩ : Shape).Idx → EReal) (bt : Fin 4) (t : Fin 2048) (e : Fin 1024) : EReal :=
  (∑ d : Fin 1024, x (ix3 bt t d) * W (ix2 e d)) + b (ix1 e)

/-- The masked score of one query row `q` against key row `k s`: the fill where the mask word is 0, else the dot product. -/
def score (q : Fin 1024 → EReal) (k : Fin 2048 → Fin 1024 → EReal) (msk : Fin 2048 → BitVec 32) (s : Fin 2048) : EReal :=
  Scalar.select (IntOp.cmpi .eq (msk s) 0#32) negBig (∑ d : Fin 1024, q d * k s d)

/-- One output entry of one query row: its softmax row against the values' column `e`, plus the residual entry. Everything
    a query row's output depends on: the row `q`, the batch's keys `k` and values `v`, the row's mask words, its residual. -/
def attnRow (q : Fin 1024 → EReal) (k v : Fin 2048 → Fin 1024 → EReal) (msk : Fin 2048 → BitVec 32) (xres : EReal)
    (e : Fin 1024) : EReal :=
  (∑ s : Fin 2048, softmax (score q k msk) s * v s e) + xres

/-- The whole result array as a function of the nine arguments. -/
def attn (x y : (⟨3, ![4, 2048, 1024]⟩ : Shape).Idx → EReal) (mask : (⟨3, ![4, 2048, 2048]⟩ : Shape).Idx → BitVec 32)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) :
    (⟨3, ![4, 2048, 1024]⟩ : Shape).Idx → EReal :=
  fun i => attnRow (lin x Wq bq (i 0) (i 1)) (lin y Wk bk (i 0)) (lin y Wv bv (i 0)) (fun s => mask (ix3 (i 0) (i 1) s)) (x i) (i 2)

/-- `max` with the fold's own starting value changes nothing: the fold is already above it. -/
theorem max_negInf_rowMax {n : Nat} (r : Fin n → EReal) : max negInf (rowMax r) = rowMax r :=
  max_eq_right ((Finset.le_fold_max _).mpr (Or.inl le_rfl))

end Cert.CrossAttn

end
-- ==== Proof.RefValue.lean ====
/-
  The reference program's result, read one operation at a time, is the cross-attention function `attn` of its nine
  arguments: its three einsum projections are `lin`, its masked scores `score`, the softmax (row maximum taken from
  -∞, shifted exponentials, their sum, the quotient) is `softmax`, and the last einsum plus the residual is `attnRow`.
-/
import proofs.«428873_j747324309856_3_alg».proof.Proof.Gen.ReferenceIdeal.Read
import proofs.«428873_j747324309856_3_alg».proof.Proof.Spec

noncomputable section

open scoped BigOperators

namespace Cert.CrossAttn.Ref

open Idealize.ShloMosaic Idealize.ShloMosaic.ValueIdx Cert.ReferenceIdeal Cert.ReferenceIdeal.Read Cert.CrossAttn

/-! ## Indices are equal when their coordinates are -/

theorem idx1_ext {n0 : Nat} {i j : (⟨1, ![n0]⟩ : Shape).Idx} (h0 : (i 0).val = (j 0).val) : i = j :=
  funext fun a => Fin.ext (by match a with | ⟨0, _⟩ => exact h0)

theorem idx2_ext {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

theorem idx3_ext {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-! ## The three projections are linear layers

Each is a contraction of the last axis of the sequence against the second axis of the weight, plus the bias broadcast
along batch and position: at `(b, t, e)` it is `Σ_d x[b,t,d]·W[e,d] + bias[e]`. -/

/-- The query projection at batch `b`, position `t`, feature `e`. -/
theorem v3_eq (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (b : Fin 4) (t : Fin 2048) (e : Fin 1024) :
    val_main_v3 (F := Ideal) x0 x3 x4 (ix3 b t e) = lin x0 x3 x4 b t e := by
  rw [val_main_v3_apply, val_main_v0_apply, val_main_v2_apply, val_main_v1_apply]
  unfold lin
  refine congrArg₂ (· + ·) (Finset.sum_congr rfl fun k _ => ?_) (congrArg x4 (idx1_ext rfl))
  exact congrArg₂ (· * ·) (congrArg x0 (idx3_ext rfl rfl rfl)) (congrArg x3 (idx2_ext rfl rfl))

/-- The key projection. -/
theorem v7_eq (x1 : (⟨S4x2048x1024, .f32⟩ : BufTy).Contents (Elt Ideal)) (x5 : (⟨S1024x1024, .f32⟩ : BufTy).Contents (Elt Ideal))
    (x6 : (⟨S1024, .f32⟩ : BufTy).Contents (Elt Ideal)) (b : Fin 4) (t : Fin 2048) (e : Fin 1024) :
    val_main_v7 (F := Ideal) x1 x5 x6 (ix3 b t e) = lin x1 x5 x6 b t e := by
  rw [val_main_v7_apply, val_main_v4_apply, val_main_v6_apply, val_main_v5_apply]
  unfold lin
  refine congrArg₂ (· + ·) (Finset.sum_congr rfl fun k _ => ?_) (congrArg x6 (idx1_ext rfl))
  exact congrArg₂ (· * ·) (congrArg x1 (idx3_ext rfl rfl rfl)) (congrArg x5 (idx2_ext rfl rfl))

/-- The value projection. -/
theorem v11_eq (x1 : (⟨S4x2048x1024, .f32⟩ : BufTy).Contents (Elt Ideal)) (x7 : (⟨S1024x1024, .f32⟩ : BufTy).Contents (Elt Ideal))
    (x8 : (⟨S1024, .f32⟩ : BufTy).Contents (Elt Ideal)) (b : Fin 4) (t : Fin 2048) (e : Fin 1024) :
    val_main_v11 (F := Ideal) x1 x7 x8 (ix3 b t e) = lin x1 x7 x8 b t e := by
  rw [val_main_v11_apply, val_main_v8_apply, val_main_v10_apply, val_main_v9_apply]
  unfold lin
  refine congrArg₂ (· + ·) (Finset.sum_congr rfl fun k _ => ?_) (congrArg x8 (idx1_ext rfl))
  exact congrArg₂ (· * ·) (congrArg x1 (idx3_ext rfl rfl rfl)) (congrArg x7 (idx2_ext rfl rfl))

/-! ## The masked scores -/

/-- The selected score at `(b, t, s)`: the fill where the mask word is 0, else query row `t` against key row `s`. -/
theorem v15_eq (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (t s : Fin 2048) :
    val_main_v15 (F := Ideal) x0 x1 x2 x3 x4 x5 x6 (ix3 b t s)
      = score (lin x0 x3 x4 b t) (lin x1 x5 x6 b) (fun s' => x2 (ix3 b t s')) s := by
  rw [val_main_v15_apply, val_main_v12_apply]
  unfold score
  refine congrArg (Scalar.select _ _) (Finset.sum_congr rfl fun k _ => ?_)
  refine congrArg₂ (· * ·) ?_ ?_
  · exact (congrArg (val_main_v3 (F := Ideal) x0 x3 x4) (idx3_ext (i := lidx_main_v12 (ix3 b t s) k) (j := ix3 b t k) rfl rfl rfl)).trans (v3_eq x0 x3 x4 b t k)
  · exact (congrArg (val_main_v7 (F := Ideal) x1 x5 x6) (idx3_ext (i := ridx_main_v12 (ix3 b t s) k) (j := ix3 b s k) rfl rfl rfl)).trans (v7_eq x1 x5 x6 b s k)

/-- The score row of query `(b, t)` as a function of the key position. -/
theorem v15_row (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (t : Fin 2048) :
    (fun s => val_main_v15 (F := Ideal) x0 x1 x2 x3 x4 x5 x6 (ix3 b t s))
      = score (lin x0 x3 x4 b t) (lin x1 x5 x6 b) (fun s' => x2 (ix3 b t s')) :=
  funext fun s => v15_eq x0 x1 x2 x3 x4 x5 x6 b t s

/-! ## The row maximum -/

/-- The reduction over the key axis folds `max` from -∞ over the row; the later `max` with -∞ changes nothing. -/
theorem v18_eq (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (t : Fin 2048) :
    val_main_v18 (F := Ideal) x0 x1 x2 x3 x4 x5 x6 (ix2 b t)
      = rowMax (fun s => val_main_v15 (F := Ideal) x0 x1 x2 x3 x4 x5 x6 (ix3 b t s)) := by
  have hR : S4x2048x2048.Reduces [2] S4x2048 := by decide
  rw [val_main_v18_apply]
  have h16 : val_main_v16 (F := Ideal) x0 x1 x2 x3 x4 x5 x6 (ix2 b t)
      = rowMax (fun s => val_main_v15 (F := Ideal) x0 x1 x2 x3 x4 x5 x6 (ix3 b t s)) := by
    unfold val_main_v16
    refine (Host.reduce_eq_fold_single (FloatOps.maximumf (F := Ideal) (φ := .f32)) _ _ Facts₀.reducesTo_S4x2048x2048_S4x2048_d2
      hR Facts₀.h_S_ (ix2 b t)).trans ?_
    unfold rowMax
    show Finset.fold max negInf (fun s : Fin 2048 => val_main_v15 (F := Ideal) x0 x1 x2 x3 x4 x5 x6
        (hR.lift (ix2 b t) s)) Finset.univ = _
    refine congrArg (fun r => Finset.fold max negInf r Finset.univ) (funext fun s => ?_)
    exact congrArg (val_main_v15 (F := Ideal) x0 x1 x2 x3 x4 x5 x6) (idx3_ext (j := ix3 b t s) rfl rfl rfl)
  rw [h16]
  exact max_negInf_rowMax _

/-! ## The softmax of a score row -/

/-- The shifted exponential at `(b, t, s)`: the two broadcasts carry the row's maximum to every key position. -/
theorem v22_eq (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (t s : Fin 2048) :
    val_main_v22 (F := Ideal) x0 x1 x2 x3 x4 x5 x6 (ix3 b t s)
      = Ideal.exp (val_main_v15 (F := Ideal) x0 x1 x2 x3 x4 x5 x6 (ix3 b t s)
          - rowMax (fun s' => val_main_v15 (F := Ideal) x0 x1 x2 x3 x4 x5 x6 (ix3 b t s'))) := by
  rw [val_main_v22_apply, val_main_v21_apply, val_main_v20_apply, val_main_v19_apply]
  show Ideal.exp (val_main_v15 (F := Ideal) x0 x1 x2 x3 x4 x5 x6 (ix3 b t s)
      - val_main_v18 (F := Ideal) x0 x1 x2 x3 x4 x5 x6 (idx_main_v19 (idx_main_v20 (ix3 b t s)))) = _
  refine congrArg (fun m : EReal => Ideal.exp (val_main_v15 (F := Ideal) x0 x1 x2 x3 x4 x5 x6 (ix3 b t s) - m)) ?_
  exact (congrArg (val_main_v18 (F := Ideal) x0 x1 x2 x3 x4 x5 x6) (idx2_ext (i := idx_main_v19 (idx_main_v20 (ix3 b t s))) (j := ix2 b t) rfl rfl)).trans (v18_eq x0 x1 x2 x3 x4 x5 x6 b t)

/-- The row's sum of exponentials: the reduction starts from the word of 0, which is 0. -/
theorem v23_eq (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (t : Fin 2048) :
    val_main_v23 (F := Ideal) x0 x1 x2 x3 x4 x5 x6 (ix2 b t) = ∑ k : Fin 2048, val_main_v22 (F := Ideal) x0 x1 x2 x3 x4 x5 x6 (ix3 b t k) := by
  rw [val_main_v23_apply, val_main_cst_2_apply, Ideal.ofBits_def, Ideal.ofBits_zero_f32, zero_add]
  exact Finset.sum_congr rfl fun k _ =>
    congrArg (val_main_v22 (F := Ideal) x0 x1 x2 x3 x4 x5 x6) (idx3_ext (j := ix3 b t k) rfl rfl rfl)

/-- The quotient at `(b, t, s)` is the softmax of the score row. -/
theorem v26_eq (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (t s : Fin 2048) :
    val_main_v26 (F := Ideal) x0 x1 x2 x3 x4 x5 x6 (ix3 b t s)
      = softmax (fun s' => val_main_v15 (F := Ideal) x0 x1 x2 x3 x4 x5 x6 (ix3 b t s')) s := by
  rw [val_main_v26_apply, val_main_v25_apply, val_main_v24_apply]
  unfold softmax
  show Ideal.div (val_main_v22 (F := Ideal) x0 x1 x2 x3 x4 x5 x6 (ix3 b t s))
      (val_main_v23 (F := Ideal) x0 x1 x2 x3 x4 x5 x6 (idx_main_v24 (idx_main_v25 (ix3 b t s)))) = _
  refine congrArg₂ Ideal.div (v22_eq x0 x1 x2 x3 x4 x5 x6 b t s) ?_
  refine (congrArg (val_main_v23 (F := Ideal) x0 x1 x2 x3 x4 x5 x6) (idx2_ext (i := idx_main_v24 (idx_main_v25 (ix3 b t s))) (j := ix2 b t) rfl rfl)).trans
    ((v23_eq x0 x1 x2 x3 x4 x5 x6 b t).trans ?_)
  exact Finset.sum_congr rfl fun k _ => v22_eq x0 x1 x2 x3 x4 x5 x6 b t k

/-! ## The result -/

/-- The reference's last stage is `attn` of the arguments. -/
theorem ref_eq (x0 x1 : (⟨S4x2048x1024, .f32⟩ : BufTy).Contents (Elt Ideal)) (x2 : (⟨S4x2048x2048, .i32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) :
    val_main_v28 (F := Ideal) x0 x1 x2 x3 x4 x5 x6 x7 x8 = attn x0 x1 x2 x3 x4 x5 x6 x7 x8 := by
  funext i
  obtain ⟨b, t, e, rfl⟩ : ∃ (b : Fin 4) (t : Fin 2048) (e : Fin 1024), i = ix3 b t e := ⟨i 0, i 1, i 2, eq_ix3 i⟩
  rw [val_main_v28_apply, val_main_v27_apply]
  show (∑ k : Fin 2048, val_main_v26 (F := Ideal) x0 x1 x2 x3 x4 x5 x6 (lidx_main_v27 (ix3 b t e) k)
        * val_main_v11 (F := Ideal) x1 x7 x8 (ridx_main_v27 (ix3 b t e) k)) + x0 (ix3 b t e)
      = (∑ s : Fin 2048, softmax (score (lin x0 x3 x4 b t) (lin x1 x5 x6 b) (fun s' => x2 (ix3 b t s'))) s
        * lin x1 x7 x8 b s e) + x0 (ix3 b t e)
  refine congrArg (· + x0 (ix3 b t e)) (Finset.sum_congr rfl fun k _ => ?_)
  refine congrArg₂ (· * ·) ?_ ?_
  · refine (congrArg (val_main_v26 (F := Ideal) x0 x1 x2 x3 x4 x5 x6) (idx3_ext (i := lidx_main_v27 (ix3 b t e) k) (j := ix3 b t k) rfl rfl rfl)).trans
      ((v26_eq x0 x1 x2 x3 x4 x5 x6 b t k).trans ?_)
    exact congrArg (fun r => softmax r k) (v15_row x0 x1 x2 x3 x4 x5 x6 b t)
  · exact (congrArg (val_main_v11 (F := Ideal) x1 x7 x8) (idx3_ext (i := ridx_main_v27 (ix3 b t e) k) (j := ix3 b k e) rfl rfl rfl)).trans
      (v11_eq x1 x7 x8 b k e)

end Cert.CrossAttn.Ref

end
-- ==== Proof.HostVals.lean ====
/-
  What the host operations around the two kernels hand them, read at an index, at the ideal values.
  Before the key/value kernel: y flattened to 8192 rows (row r is batch r / 2048, position r % 2048); the transposed,
  narrowed (the identity on extended reals) and side-by-side weights [Wkᵀ | Wvᵀ], so that column e < 1024 of row d is
  Wk[e, d] and column 1024 + e is Wv[e, d]; the two biases end to end as one row.
  Before the attention kernel: x and the mask untouched; Wqᵀ; bq as one row; and the key and value arrays the first kernel
  left, viewed as [4, 2048, 1024] (entry (b, s, d) is row b·2048 + s, column d of the flat array).
-/
import proofs.«428873_j747324309856_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.CrossAttn.Host

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-! ## The nine arguments as launched, at their literal types -/

abbrev aX (c : Dev nD) : S4x2048x1024.Idx → EReal := m ((c : Thread nD τ).loc main_arg0)
abbrev aY (c : Dev nD) : S4x2048x1024.Idx → EReal := m ((c : Thread nD τ).loc main_arg1)
abbrev aMask (c : Dev nD) : S4x2048x2048.Idx → BitVec 32 := m ((c : Thread nD τ).loc main_arg2)
abbrev aWq (c : Dev nD) : S1024x1024.Idx → EReal := m ((c : Thread nD τ).loc main_arg3)
abbrev aBq (c : Dev nD) : S1024.Idx → EReal := m ((c : Thread nD τ).loc main_arg4)
abbrev aWk (c : Dev nD) : S1024x1024.Idx → EReal := m ((c : Thread nD τ).loc main_arg5)
abbrev aBk (c : Dev nD) : S1024.Idx → EReal := m ((c : Thread nD τ).loc main_arg6)
abbrev aWv (c : Dev nD) : S1024x1024.Idx → EReal := m ((c : Thread nD τ).loc main_arg7)
abbrev aBv (c : Dev nD) : S1024.Idx → EReal := m ((c : Thread nD τ).loc main_arg8)

/-! ## The arrays each kernel is entered with, at their literal types -/

abbrev e1Y (c : Dev nD) : S8192x1024.Idx → EReal := V1 m ρ c main_v10
abbrev e1W (c : Dev nD) : S1024x2048.Idx → EReal := V1 m ρ c main_v6
abbrev e1B (c : Dev nD) : S1x2048.Idx → EReal := V1 m ρ c main_v9
abbrev e3X (c : Dev nD) : S4x2048x1024.Idx → EReal := V3 m ρ c main_arg0
abbrev e3Wq (c : Dev nD) : S1024x1024.Idx → EReal := V3 m ρ c main_v1
abbrev e3Bq (c : Dev nD) : S1x1024.Idx → EReal := V3 m ρ c main_v7
abbrev e3K (c : Dev nD) : S4x2048x1024.Idx → EReal := V3 m ρ c main_v12
abbrev e3V (c : Dev nD) : S4x2048x1024.Idx → EReal := V3 m ρ c main_v13
abbrev e3M (c : Dev nD) : S4x2048x2048.Idx → BitVec 32 := V3 m ρ c main_arg2
/-- The first kernel's two results after its run. -/
abbrev r1K (c : Dev nD) : S8192x1024.Idx → EReal := (dat0 (V1 m ρ) c).arrAt 3 cfg0.N
abbrev r1V (c : Dev nD) : S8192x1024.Idx → EReal := (dat0 (V1 m ρ) c).arrAt 4 cfg0.N

/-! ## Before the key/value kernel -/

/-- y flattened: row b·2048 + s of the flat array is position s of batch b. -/
theorem V1_y (c : Dev nD) (b : Fin 4) (s : Fin 2048) (d : Fin 1024) :
    e1Y m ρ c (ix2 (⟨b.val * 2048 + s.val, by omega⟩ : Fin 8192) d) = aY m c (ix3 b s d) := by
  have e : (V1 m ρ c main_v10 : S8192x1024.Idx → EReal)
      = shapeCast S8192x1024 (aY m c) shapeCasts_S4x2048x1024_S8192x1024 := by
    dsimp only [V1, W1, hostOps0]; after_results; rfl
  dsimp only [e1Y, e1W, e1B, e3Wq, e3Bq, e3K, e3V, r1K, r1V]
  rw [e]
  refine shapeCast_apply (s := S4x2048x1024) (t := S8192x1024) _ _ _ _ ?_
  rw [Shape.rowMajor_val_three, Shape.rowMajor_val_two]
  rfl

/-- The fused weights as the kernel finds them: the transposes of Wk and Wv side by side. -/
theorem V1_w (c : Dev nD) : (V1 m ρ c main_v6 : S1024x2048.Idx → EReal)
    = concatenate S1024x2048 1 [⟨S1024x1024, truncf (F := Ideal) .bf16 (transpose S1024x1024 [1, 0] (aWk m c) transposes_S1024x1024_S1024x1024_1_0) bitsLt_bf16_f32⟩,
        ⟨S1024x1024, truncf (F := Ideal) .bf16 (transpose S1024x1024 [1, 0] (aWv m c) transposes_S1024x1024_S1024x1024_1_0) bitsLt_bf16_f32⟩]
        concatenates_S1024x1024_S1024x1024_S1024x2048_d1 := by
  dsimp only [V1, W1, hostOps0]; after_results

/-- Column e < 1024 of row d of the fused weights is Wk[e, d]. -/
theorem V1_w_lo (c : Dev nD) (d e : Fin 1024) :
    e1W m ρ c (ix2 d (⟨e.val, by omega⟩ : Fin 2048)) = aWk m c (ix2 e d) := by
  dsimp only [e1Y, e1W, e1B, e3Wq, e3Bq, e3K, e3V, r1K, r1V]
  rw [V1_w]
  refine (concatenate_pair_apply_left (t := S1024x2048) (s₁ := S1024x1024) (s₂ := S1024x1024) (1 : Fin 2) _ _ _ (ix2 d (⟨e.val, by omega⟩ : Fin 2048)) rfl (ix2 d e)
    (fun b => match b with | ⟨0, _⟩ => rfl | ⟨1, _⟩ => rfl)).trans ?_
  exact transpose_ix2_apply (aWk m c) transposes_S1024x1024_S1024x1024_1_0 d e

/-- Column 1024 + e of row d of the fused weights is Wv[e, d]. -/
theorem V1_w_hi (c : Dev nD) (d e : Fin 1024) :
    e1W m ρ c (ix2 d (⟨1024 + e.val, by omega⟩ : Fin 2048)) = aWv m c (ix2 e d) := by
  dsimp only [e1Y, e1W, e1B, e3Wq, e3Bq, e3K, e3V, r1K, r1V]
  rw [V1_w]
  refine (concatenate_pair_apply_right (t := S1024x2048) (s₁ := S1024x1024) (s₂ := S1024x1024) (1 : Fin 2) _ _ _ (ix2 d (⟨1024 + e.val, by omega⟩ : Fin 2048)) rfl rfl (ix2 d e)
    (fun b hb => match b, hb with | ⟨0, _⟩, _ => rfl | ⟨1, _⟩, hb => absurd rfl hb) (by show e.val + 1024 = 1024 + e.val; omega)).trans ?_
  exact transpose_ix2_apply (aWv m c) transposes_S1024x1024_S1024x1024_1_0 d e

/-- The fused bias as the kernel finds it: bk then bv, as one row. -/
theorem V1_b (c : Dev nD) : (V1 m ρ c main_v9 : S1x2048.Idx → EReal)
    = shapeCast S1x2048 (concatenate S2048 0 [⟨S1024, aBk m c⟩, ⟨S1024, aBv m c⟩] concatenates_S1024_S1024_S2048_d0) shapeCasts_S2048_S1x2048 := by
  dsimp only [V1, W1, hostOps0]; after_results; rfl

theorem V1_b_lo (c : Dev nD) (e : Fin 1024) :
    e1B m ρ c (ix2 (0 : Fin 1) (⟨e.val, by omega⟩ : Fin 2048)) = aBk m c (ix1 e) := by
  dsimp only [e1Y, e1W, e1B, e3Wq, e3Bq, e3K, e3V, r1K, r1V]
  rw [V1_b]
  refine (shapeCast_a_1a_apply _ shapeCasts_S2048_S1x2048 (0 : Fin 1) (⟨e.val, by omega⟩ : Fin 2048)).trans ?_
  exact concatenate_pair_apply_left (t := S2048) (s₁ := S1024) (s₂ := S1024) (0 : Fin 1) _ _ _ (ix1 (⟨e.val, by omega⟩ : Fin 2048)) rfl (ix1 e)
    (fun b => match b with | ⟨0, _⟩ => rfl)

theorem V1_b_hi (c : Dev nD) (e : Fin 1024) :
    e1B m ρ c (ix2 (0 : Fin 1) (⟨1024 + e.val, by omega⟩ : Fin 2048)) = aBv m c (ix1 e) := by
  dsimp only [e1Y, e1W, e1B, e3Wq, e3Bq, e3K, e3V, r1K, r1V]
  rw [V1_b]
  refine (shapeCast_a_1a_apply _ shapeCasts_S2048_S1x2048 (0 : Fin 1) (⟨1024 + e.val, by omega⟩ : Fin 2048)).trans ?_
  exact concatenate_pair_apply_right (t := S2048) (s₁ := S1024) (s₂ := S1024) (0 : Fin 1) _ _ _ (ix1 (⟨1024 + e.val, by omega⟩ : Fin 2048)) rfl rfl (ix1 e)
    (fun b hb => match b, hb with | ⟨0, _⟩, hb => absurd rfl hb) (by show e.val + 1024 = 1024 + e.val; omega)

/-! ## Before the attention kernel -/

/-- No host operation between the kernels writes any of these buffers, and the first kernel's arrays are others. -/
theorem hostOps1_keeps (c : Dev nD) (b : Ref sig .tc) (h1 : (Proc.devRef .tc b : DevRef τ sig) ≠ Proc.devRef .tc main_v12)
    (h2 : (Proc.devRef .tc b : DevRef τ sig) ≠ Proc.devRef .tc main_v13) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨h1, h2⟩))

/-- x reaches the attention kernel as launched. -/
theorem V3_x (c : Dev nD) : e3X m ρ c = aX m c := by
  show W3 m ρ c (Proc.devRef .tc main_arg0) = _
  rw [hostOps1_keeps m ρ c main_arg0 (StableHlo.devRef_ne_of_ne (by decide)) (StableHlo.devRef_ne_of_ne (by decide)),
    W2_of_ne m ρ c main_arg0 (by decide)]
  show (W1 m ρ c (Proc.devRef .tc main_arg0) : S4x2048x1024.Idx → EReal) = _
  dsimp only [W1, hostOps0]; after_results

/-- The mask reaches the attention kernel as launched. -/
theorem V3_mask (c : Dev nD) : e3M m ρ c = aMask m c := by
  show W3 m ρ c (Proc.devRef .tc main_arg2) = _
  rw [hostOps1_keeps m ρ c main_arg2 (StableHlo.devRef_ne_of_ne (by decide)) (StableHlo.devRef_ne_of_ne (by decide)),
    W2_of_ne m ρ c main_arg2 (by decide)]
  show (W1 m ρ c (Proc.devRef .tc main_arg2) : S4x2048x2048.Idx → BitVec 32) = _
  dsimp only [W1, hostOps0]; after_results

/-- The query weights as the attention kernel finds them: Wq transposed. -/
theorem V3_wq (c : Dev nD) (j d : Fin 1024) : e3Wq m ρ c (ix2 j d) = aWq m c (ix2 d j) := by
  have e : (V3 m ρ c main_v1 : S1024x1024.Idx → EReal)
      = truncf (F := Ideal) .bf16 (transpose S1024x1024 [1, 0] (aWq m c) transposes_S1024x1024_S1024x1024_1_0) bitsLt_bf16_f32 := by
    show W3 m ρ c (Proc.devRef .tc main_v1) = _
    rw [hostOps1_keeps m ρ c main_v1 (StableHlo.devRef_ne_of_ne (by decide)) (StableHlo.devRef_ne_of_ne (by decide)),
      W2_of_ne m ρ c main_v1 (by decide)]
    show (W1 m ρ c (Proc.devRef .tc main_v1) : S1024x1024.Idx → EReal) = _
    dsimp only [W1, hostOps0]; after_results
  dsimp only [e1Y, e1W, e1B, e3Wq, e3Bq, e3K, e3V, r1K, r1V]
  rw [e]
  exact transpose_ix2_apply (aWq m c) transposes_S1024x1024_S1024x1024_1_0 j d

/-- The query bias as the attention kernel finds it: bq as one row. -/
theorem V3_bq (c : Dev nD) (d : Fin 1024) : e3Bq m ρ c (ix2 (0 : Fin 1) d) = aBq m c (ix1 d) := by
  have e : (V3 m ρ c main_v7 : S1x1024.Idx → EReal) = shapeCast S1x1024 (aBq m c) shapeCasts_S1024_S1x1024 := by
    show W3 m ρ c (Proc.devRef .tc main_v7) = _
    rw [hostOps1_keeps m ρ c main_v7 (StableHlo.devRef_ne_of_ne (by decide)) (StableHlo.devRef_ne_of_ne (by decide)),
      W2_of_ne m ρ c main_v7 (by decide)]
    show (W1 m ρ c (Proc.devRef .tc main_v7) : S1x1024.Idx → EReal) = _
    dsimp only [W1, hostOps0]; after_results; rfl
  dsimp only [e1Y, e1W, e1B, e3Wq, e3Bq, e3K, e3V, r1K, r1V]
  rw [e]
  exact shapeCast_a_1a_apply _ shapeCasts_S1024_S1x1024 (0 : Fin 1) d

/-- The keys as the attention kernel finds them: the first kernel's first result, row b·2048 + s. -/
theorem V3_k (c : Dev nD) (b : Fin 4) (s : Fin 2048) (d : Fin 1024) :
    e3K m ρ c (ix3 b s d) = r1K m ρ c (ix2 (⟨b.val * 2048 + s.val, by omega⟩ : Fin 8192) d) := by
  have e : (V3 m ρ c main_v12 : S4x2048x1024.Idx → EReal)
      = shapeCast S4x2048x1024 ((dat0 (V1 m ρ) c).arrAt 3 cfg0.N : S8192x1024.Idx → EReal) shapeCasts_S8192x1024_S4x2048x1024 := by
    rw [← W2_arr m ρ c 3]
    show (W3 m ρ c (Proc.devRef .tc main_v12) : S4x2048x1024.Idx → EReal) = _
    dsimp only [W3, hostOps1]; after_results; rfl
  dsimp only [e1Y, e1W, e1B, e3Wq, e3Bq, e3K, e3V, r1K, r1V]
  rw [e]
  refine shapeCast_apply (s := S8192x1024) (t := S4x2048x1024) _ _ _ _ ?_
  rw [Shape.rowMajor_val_three, Shape.rowMajor_val_two]
  rfl

/-- The values as the attention kernel finds them: the first kernel's second result, row b·2048 + s. -/
theorem V3_v (c : Dev nD) (b : Fin 4) (s : Fin 2048) (d : Fin 1024) :
    e3V m ρ c (ix3 b s d) = r1V m ρ c (ix2 (⟨b.val * 2048 + s.val, by omega⟩ : Fin 8192) d) := by
  have e : (V3 m ρ c main_v13 : S4x2048x1024.Idx → EReal)
      = shapeCast S4x2048x1024 ((dat0 (V1 m ρ) c).arrAt 4 cfg0.N : S8192x1024.Idx → EReal) shapeCasts_S8192x1024_S4x2048x1024 := by
    rw [← W2_arr m ρ c 4]
    show (W3 m ρ c (Proc.devRef .tc main_v13) : S4x2048x1024.Idx → EReal) = _
    dsimp only [W3, hostOps1]; after_results; rfl
  dsimp only [e1Y, e1W, e1B, e3Wq, e3Bq, e3K, e3V, r1K, r1V]
  rw [e]
  refine shapeCast_apply (s := S8192x1024) (t := S4x2048x1024) _ _ _ _ ?_
  rw [Shape.rowMajor_val_three, Shape.rowMajor_val_two]
  rfl

end Cert.CrossAttn.Host

end
-- ==== Proof.KvBlock.lean ====
/-
  One grid point of the fused key/value projection, read at an index: the block's row `p` of y against column `e` of the
  concatenated weights [Wkᵀ | Wvᵀ], plus the concatenated bias, columns 0..1023 going to K and 1024..2047 to V.
-/
import proofs.«428873_j747324309856_3_alg».proof.Proof.Gen.KernelIdeal.Skeleton
import proofs.«428873_j747324309856_3_alg».proof.Proof.Spec
import Idealize.ShloMosaic.Lib.Pipeline.Value
import Idealize.ShloMosaic.Lib.ValueLayout
import Idealize.ShloMosaic.PureOps.Ideal.Laws

noncomputable section

open scoped BigOperators

namespace Cert.CrossAttn.Kv

open Idealize.ShloMosaic Idealize.ShloMosaic.ValueIdx Cert.KernelIdeal Cert.KernelIdeal.Gen Cert.CrossAttn

/-- The product's left operand is read at the output's row … -/
theorem lhs_kv_0 (j : S512x2048.Idx) (q : dot_S512x1024_S1024x2048_S512x2048_1_0_0_1_n_n.contr.Idx) :
    (dot_S512x1024_S1024x2048_S512x2048_1_0_0_1_n_n.lhsIdx j q 0).val = (j 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- … and at the contraction position on its second axis. -/
theorem lhs_kv_1 (j : S512x2048.Idx) (q : dot_S512x1024_S1024x2048_S512x2048_1_0_0_1_n_n.contr.Idx) :
    (dot_S512x1024_S1024x2048_S512x2048_1_0_0_1_n_n.lhsIdx j q 1).val = (q ⟨0, by decide⟩).val :=
  dot_S512x1024_S1024x2048_S512x2048_1_0_0_1_n_n.lhsIdx_val_of_single rfl j q
/-- The right operand is read at the contraction position on its first axis … -/
theorem rhs_kv_0 (j : S512x2048.Idx) (q : dot_S512x1024_S1024x2048_S512x2048_1_0_0_1_n_n.contr.Idx) :
    (dot_S512x1024_S1024x2048_S512x2048_1_0_0_1_n_n.rhsIdx j q 0).val = (q ⟨0, by decide⟩).val :=
  dot_S512x1024_S1024x2048_S512x2048_1_0_0_1_n_n.rhsIdx_val_of_single rfl j q
/-- … and at the output's column. -/
theorem rhs_kv_1 (j : S512x2048.Idx) (q : dot_S512x1024_S1024x2048_S512x2048_1_0_0_1_n_n.contr.Idx) :
    (dot_S512x1024_S1024x2048_S512x2048_1_0_0_1_n_n.rhsIdx j q 1).val = (j 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The fused projection before the split: row `p` of the block against column `c` of the concatenated weights, plus the
    concatenated bias at `c`. -/
theorem pay_kv (x0 : Vec Ideal S512x1024 .f32) (x1 : Vec Ideal S1024x2048 .bf16) (x2 : Vec Ideal S1x2048 .f32) (p : Fin 512) (c : Fin 2048) :
    k0_pay1 (F := Ideal) x0 x1 x2 (ix2 p c)
      = (∑ d : Fin 1024, x0 (ix2 p d) * x1 (ix2 d c)) + x2 (ix2 (0 : Fin 1) c) := by
  unfold k0_pay1
  refine (addf_apply _ _ _).trans ?_
  have hB : broadcastTo S512x2048 (shapeCast S1x2048 x2 shapeCasts_S1x2048_S1x2048) broadcasts_S1x2048_S512x2048 (ix2 p c)
      = x2 (ix2 (0 : Fin 1) c) := by
    refine (broadcastTo_apply _ broadcasts_S1x2048_S512x2048 (ix2 p c) (ix2 (0 : Fin 1) c) fun a => ?_).trans
      (congrFun (shapeCast_self x2 shapeCasts_S1x2048_S1x2048) _)
    match a with
    | ⟨0, _⟩ => show 0 = if (1 : Nat) = 1 then 0 else p.val; rw [if_pos rfl]
    | ⟨1, _⟩ => show c.val = if (2048 : Nat) = 1 then 0 else c.val; rw [if_neg (by decide)]
  refine congrArg₂ (· + ·) ?_ hB
  refine (Ideal.matmul_constant_zero_apply dot_S512x1024_S1024x2048_S512x2048_1_0_0_1_n_n none
    (truncf FTy.bf16 (shapeCast S512x1024 x0 shapeCasts_S512x1024_S512x1024) bitsLt_bf16_f32 : FVec Ideal S512x1024 .bf16)
    (shapeCast S1024x2048 x1 shapeCasts_S1024x2048_S1024x2048 : FVec Ideal S1024x2048 .bf16) (ix2 p c)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p c) ((contrEquiv1 dot_S512x1024_S1024x2048_S512x2048_1_0_0_1_n_n 1024 rfl rfl).symm k) = ix2 p k := funext fun a => Fin.ext (by
    match a with
    | ⟨0, _⟩ => exact lhs_kv_0 _ _
    | ⟨1, _⟩ => exact (lhs_kv_1 _ _).trans hk)
  have er : dot_S512x1024_S1024x2048_S512x2048_1_0_0_1_n_n.rhsIdx (ix2 p c) ((contrEquiv1 dot_S512x1024_S1024x2048_S512x2048_1_0_0_1_n_n 1024 rfl rfl).symm k) = ix2 k c := funext fun a => Fin.ext (by
    match a with
    | ⟨0, _⟩ => exact (rhs_kv_0 _ _).trans hk
    | ⟨1, _⟩ => exact rhs_kv_1 _ _)
  rw [el, er, shapeCast_self, shapeCast_self]
  rfl

/-- The K half: columns 0..1023 of the fused product. -/
theorem pay_k (x0 : Vec Ideal S512x1024 .f32) (x1 : Vec Ideal S1024x2048 .bf16) (x2 : Vec Ideal S1x2048 .f32) (p : Fin 512) (e : Fin 1024) :
    k0_pay2 (F := Ideal) x0 x1 x2 (ix2 p e)
      = (∑ d : Fin 1024, x0 (ix2 p d) * x1 (ix2 d (⟨e.val, by omega⟩ : Fin 2048))) + x2 (ix2 (0 : Fin 1) (⟨e.val, by omega⟩ : Fin 2048)) := by
  unfold k0_pay2
  show extractStridedSlice S512x1024 ![0, 0] (k0_pay1 (F := Ideal) x0 x1 x2) slices_S512x2048_o0_0_S512x1024 (ix2 p e) = _
  refine (extractStridedSlice_apply (s := S512x2048) (t := S512x1024) (α := EReal) ![0, 0] (k0_pay1 (F := Ideal) x0 x1 x2)
    slices_S512x2048_o0_0_S512x1024 (ix2 p e) (ix2 p (⟨e.val, by omega⟩ : Fin 2048)) fun a => ?_).trans
    (pay_kv x0 x1 x2 p (⟨e.val, by omega⟩ : Fin 2048))
  match a with
  | ⟨0, _⟩ => show p.val = 0 + p.val; omega
  | ⟨1, _⟩ => show e.val = 0 + e.val; omega

/-- The V half: columns 1024..2047 of the fused product. -/
theorem pay_v (x0 : Vec Ideal S512x1024 .f32) (x1 : Vec Ideal S1024x2048 .bf16) (x2 : Vec Ideal S1x2048 .f32) (p : Fin 512) (e : Fin 1024) :
    k0_pay3 (F := Ideal) x0 x1 x2 (ix2 p e)
      = (∑ d : Fin 1024, x0 (ix2 p d) * x1 (ix2 d (⟨1024 + e.val, by omega⟩ : Fin 2048))) + x2 (ix2 (0 : Fin 1) (⟨1024 + e.val, by omega⟩ : Fin 2048)) := by
  unfold k0_pay3
  show extractStridedSlice S512x1024 ![0, 1024] (k0_pay1 (F := Ideal) x0 x1 x2) slices_S512x2048_o0_1024_S512x1024 (ix2 p e) = _
  refine (extractStridedSlice_apply (s := S512x2048) (t := S512x1024) (α := EReal) ![0, 1024] (k0_pay1 (F := Ideal) x0 x1 x2)
    slices_S512x2048_o0_1024_S512x1024 (ix2 p e) (ix2 p (⟨1024 + e.val, by omega⟩ : Fin 2048)) fun a => ?_).trans
    (pay_kv x0 x1 x2 p (⟨1024 + e.val, by omega⟩ : Fin 2048))
  match a with
  | ⟨0, _⟩ => show p.val = 0 + p.val; omega
  | ⟨1, _⟩ => show 1024 + e.val = 1024 + e.val; rfl

end Cert.CrossAttn.Kv

end
-- ==== Proof.KvArr.lean ====
/-
  The key/value kernel's two result arrays after its 16 grid points, as functions of the arrays it is entered with.
  Point t works on rows 512·t .. 512·t + 511 of the flat y and writes the same rows of the two results; the fused weights
  and bias are read whole at every point. So entry (r, e) of the first result is Σ_d y[r, d]·W[d, e] + b[0, e] and of the
  second the same at column 1024 + e, and the 16 row blocks tile the 8192 rows.
-/
import proofs.«428873_j747324309856_3_alg».proof.Proof.Gen.KernelIdeal.Frame
import proofs.«428873_j747324309856_3_alg».proof.Proof.KvBlock
import Idealize.ShloMosaic.Lib.Pipeline.Value
import Idealize.ShloMosaic.Lib.ValueIdx

set_option maxRecDepth 16384

noncomputable section

open scoped BigOperators

namespace Cert.CrossAttn.KvArr

open Idealize.ShloMosaic Idealize.ShloMosaic.TcCoe Idealize.SL.Sem Idealize.ShloMosaic.ValueIdx
open Cert.KernelIdeal Cert.KernelIdeal.Gen Cert.CrossAttn

variable (V : (c : Dev nD) → (b : Ref sig .tc) → Buf (Elt Ideal) ((c : Thread nD τ).loc b))

/-- The first result (keys): row r of y against column e of the fused weights, plus the fused bias at e. -/
def GK (Y : S8192x1024.Idx → EReal) (W : S1024x2048.Idx → EReal) (B : S1x2048.Idx → EReal) : S8192x1024.Idx → EReal :=
  fun i => (∑ d : Fin 1024, Y (ix2 (i 0) d) * W (ix2 d (⟨(i 1).val, Nat.lt_of_lt_of_le (i 1).isLt (by decide)⟩ : Fin 2048)))
    + B (ix2 (0 : Fin 1) (⟨(i 1).val, Nat.lt_of_lt_of_le (i 1).isLt (by decide)⟩ : Fin 2048))

/-- The second result (values): the same at column 1024 + e. -/
def GV (Y : S8192x1024.Idx → EReal) (W : S1024x2048.Idx → EReal) (B : S1x2048.Idx → EReal) : S8192x1024.Idx → EReal :=
  fun i => (∑ d : Fin 1024, Y (ix2 (i 0) d) * W (ix2 d (⟨1024 + (i 1).val, Nat.add_lt_add_left (i 1).isLt 1024⟩ : Fin 2048)))
    + B (ix2 (0 : Fin 1) (⟨1024 + (i 1).val, Nat.add_lt_add_left (i 1).isLt 1024⟩ : Fin 2048))

theorem hz2 : (![0, 0] : Fin 2 → Nat) = fun _ => 0 := funext fun a => by fin_cases a <;> rfl

theorem t_lt (t : Fin cfg0.N) : t.val < 16 := N_0 ▸ t.isLt

/-- The printed index maps over the grid: the row-blocked windows sit at block (t, 0), the whole-array ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The blocks a point reads, in the arrays' own coordinates -/

theorem blk_y (c : Dev nD) (t : Fin cfg0.N) (p : Fin 512) (d : Fin 1024) :
    iblk0 V c 0 t (ix2 p d) = (V c main_v10 : S8192x1024.Idx → EReal) (ix2 (⟨t.val * 512 + p.val, by have := t_lt t; omega⟩ : Fin 8192) d) := by
  show (V c main_v10 : S8192x1024.Idx → EReal) (((cfg0.win 0).blk t).view.emb (ix2 p d)) = _
  refine congrArg _ (funext fun a => Fin.ext ?_)
  obtain ⟨e0, e1, -⟩ := idx_facts t
  match a with
  | ⟨0, _⟩ => show win0_0.index t (0 : Fin 2) * 512 + 1 * p.val = t.val * 512 + p.val; rw [e0]; omega
  | ⟨1, _⟩ => show win0_0.index t (1 : Fin 2) * 1024 + 1 * d.val = d.val; rw [e1]; omega

theorem blk_w (c : Dev nD) (t : Fin cfg0.N) (d : Fin 1024) (e : Fin 2048) :
    iblk0 V c 1 t (ix2 d e) = (V c main_v6 : S1024x2048.Idx → EReal) (ix2 d e) := by
  show (V c main_v6 : S1024x2048.Idx → EReal) (((cfg0.win 1).blk t).view.emb (ix2 d e)) = _
  refine congrArg _ (funext fun a => Fin.ext ?_)
  obtain ⟨-, -, e0, e1, -⟩ := idx_facts t
  match a with
  | ⟨0, _⟩ => show win0_1.index t (0 : Fin 2) * 1024 + 1 * d.val = d.val; rw [e0]; omega
  | ⟨1, _⟩ => show win0_1.index t (1 : Fin 2) * 2048 + 1 * e.val = e.val; rw [e1]; omega

theorem blk_b (c : Dev nD) (t : Fin cfg0.N) (e : Fin 2048) :
    iblk0 V c 2 t (ix2 (0 : Fin 1) e) = (V c main_v9 : S1x2048.Idx → EReal) (ix2 (0 : Fin 1) e) := by
  show (V c main_v9 : S1x2048.Idx → EReal) (((cfg0.win 2).blk t).view.emb (ix2 (0 : Fin 1) e)) = _
  refine congrArg _ (funext fun a => Fin.ext ?_)
  obtain ⟨-, -, -, -, e0, e1, -⟩ := idx_facts t
  match a with
  | ⟨0, _⟩ => show win0_2.index t (0 : Fin 2) * 1 + 1 * 0 = 0; rw [e0]
  | ⟨1, _⟩ => show win0_2.index t (1 : Fin 2) * 2048 + 1 * e.val = e.val; rw [e1]; omega

/-- Where entry (p, e) of point t's output block sits in the result arrays: row 512·t + p. -/
theorem emb_k (t : Fin cfg0.N) (p : Fin 512) (e : Fin 1024) :
    ((cfg0.win 3).blk t).view.emb (ix2 p e) = (ix2 (⟨t.val * 512 + p.val, by have := t_lt t; omega⟩ : Fin 8192) e : S8192x1024.Idx) := by
  refine funext fun a => Fin.ext ?_
  obtain ⟨-, -, -, -, -, -, e0, e1, -⟩ := idx_facts t
  match a with
  | ⟨0, _⟩ => show win0_3.index t (0 : Fin 2) * 512 + 1 * p.val = t.val * 512 + p.val; rw [e0]; omega
  | ⟨1, _⟩ => show win0_3.index t (1 : Fin 2) * 1024 + 1 * e.val = e.val; rw [e1]; omega

theorem emb_v (t : Fin cfg0.N) (p : Fin 512) (e : Fin 1024) :
    ((cfg0.win 4).blk t).view.emb (ix2 p e) = (ix2 (⟨t.val * 512 + p.val, by have := t_lt t; omega⟩ : Fin 8192) e : S8192x1024.Idx) := by
  refine funext fun a => Fin.ext ?_
  obtain ⟨-, -, -, -, -, -, -, -, e0, e1⟩ := idx_facts t
  match a with
  | ⟨0, _⟩ => show win0_4.index t (0 : Fin 2) * 512 + 1 * p.val = t.val * 512 + p.val; rw [e0]; omega
  | ⟨1, _⟩ => show win0_4.index t (1 : Fin 2) * 1024 + 1 * e.val = e.val; rw [e1]; omega

/-! ## What a point writes back is its block of the whole-array function -/

theorem flushed_k (c : Dev nD) (t : Fin cfg0.N) :
    (dat0 V c).flushed 3 t = ((cfg0.win 3).blk t).view.read (Elt Ideal) (GK (V c main_v10) (V c main_v6) (V c main_v9)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x2048) hz2, View.ld_unit_zero (S := S1x2048) hz2]
  funext j
  obtain ⟨p, e, rfl⟩ : ∃ (p : Fin 512) (e : Fin 1024), j = ix2 p e := ⟨j 0, j 1, eq_ix2 j⟩
  show k0_pay2 (F := Ideal) (iblk0 V c 0 t) (iblk0 V c 1 t) (iblk0 V c 2 t) (ix2 p e)
    = GK (V c main_v10) (V c main_v6) (V c main_v9) (((cfg0.win 3).blk t).view.emb (ix2 p e))
  rw [emb_k t p e]
  refine (Kv.pay_k (iblk0 V c 0 t) (iblk0 V c 1 t) (iblk0 V c 2 t) p e).trans ?_
  rw [blk_b V c t]
  simp only [blk_y V c t, blk_w V c t]
  rfl

theorem flushed_v (c : Dev nD) (t : Fin cfg0.N) :
    (dat0 V c).flushed 4 t = ((cfg0.win 4).blk t).view.read (Elt Ideal) (GV (V c main_v10) (V c main_v6) (V c main_v9)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x2048) hz2, View.ld_unit_zero (S := S1x2048) hz2]
  funext j
  obtain ⟨p, e, rfl⟩ : ∃ (p : Fin 512) (e : Fin 1024), j = ix2 p e := ⟨j 0, j 1, eq_ix2 j⟩
  show k0_pay3 (F := Ideal) (iblk0 V c 0 t) (iblk0 V c 1 t) (iblk0 V c 2 t) (ix2 p e)
    = GV (V c main_v10) (V c main_v6) (V c main_v9) (((cfg0.win 4).blk t).view.emb (ix2 p e))
  rw [emb_v t p e]
  refine (Kv.pay_v (iblk0 V c 0 t) (iblk0 V c 1 t) (iblk0 V c 2 t) p e).trans ?_
  rw [blk_b V c t]
  simp only [blk_y V c t, blk_w V c t]
  rfl

/-! ## The 16 row blocks tile the 8192 rows -/

theorem mem_blk_k (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v11_0).slice (win0_3.rect t)).set ↔ _
  rw [View.set_slice_whole, Rect.mem_set_unit]
  exact Iff.rfl

theorem mem_blk_v (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v11_1).slice (win0_4.rect t)).set ↔ _
  rw [View.set_slice_whole, Rect.mem_set_unit]
  exact Iff.rfl

theorem cover_k (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, -, -, e0, e1, -⟩ := idx_facts t
  refine ⟨t, flush0_3 t, (mem_blk_k t i).mpr fun a => ?_⟩
  match a with
  | ⟨0, _⟩ => show win0_3.index t (0 : Fin 2) * 512 ≤ (i 0).val ∧ (i 0).val < win0_3.index t (0 : Fin 2) * 512 + 512; rw [e0]; show (i 0).val / 512 * 512 ≤ _ ∧ _ < (i 0).val / 512 * 512 + 512; omega
  | ⟨1, _⟩ => show win0_3.index t (1 : Fin 2) * 1024 ≤ (i 1).val ∧ (i 1).val < win0_3.index t (1 : Fin 2) * 1024 + 1024; rw [e1]; omega

theorem cover_v (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, -, -, -, -, e0, e1⟩ := idx_facts t
  refine ⟨t, flush0_4 t, (mem_blk_v t i).mpr fun a => ?_⟩
  match a with
  | ⟨0, _⟩ => show win0_4.index t (0 : Fin 2) * 512 ≤ (i 0).val ∧ (i 0).val < win0_4.index t (0 : Fin 2) * 512 + 512; rw [e0]; show (i 0).val / 512 * 512 ≤ _ ∧ _ < (i 0).val / 512 * 512 + 512; omega
  | ⟨1, _⟩ => show win0_4.index t (1 : Fin 2) * 1024 ≤ (i 1).val ∧ (i 1).val < win0_4.index t (1 : Fin 2) * 1024 + 1024; rw [e1]; omega

/-! ## The two arrays after the run -/

theorem final_k (c : Dev nD) : ((dat0 V c).arrAt 3 cfg0.N : S8192x1024.Idx → EReal) = GK (V c main_v10) (V c main_v6) (V c main_v9) :=
  (dat0 V c).arrAt_eq_of_cover 3 (GK (V c main_v10) (V c main_v6) (V c main_v9)) (fun t _ => flushed_k V c t) cover_k

theorem final_v (c : Dev nD) : ((dat0 V c).arrAt 4 cfg0.N : S8192x1024.Idx → EReal) = GV (V c main_v10) (V c main_v6) (V c main_v9) :=
  (dat0 V c).arrAt_eq_of_cover 4 (GV (V c main_v10) (V c main_v6) (V c main_v9)) (fun t _ => flushed_v V c t) cover_v

end Cert.CrossAttn.KvArr

end
-- ==== Proof.AttnBlock.lean ====
/-
  One grid point of the attention kernel, read at an index: query row `p` of the block is projected (x·Wqᵀ + bq), scored
  against all 2048 keys of the batch, masked, softmaxed along the keys, combined with the values, and the residual added.
-/
import proofs.«428873_j747324309856_3_alg».proof.Proof.Gen.KernelIdeal.Skeleton
import proofs.«428873_j747324309856_3_alg».proof.Proof.Spec
import Idealize.ShloMosaic.Lib.Pipeline.Value
import Idealize.ShloMosaic.Lib.ValueLayout

noncomputable section

open scoped BigOperators

namespace Cert.CrossAttn.Blk

open Idealize.ShloMosaic Idealize.ShloMosaic.ValueIdx Cert.KernelIdeal Cert.KernelIdeal.Gen Cert.CrossAttn

/-! ## The three contractions, read at an index

Each is the sum over its one contraction coordinate of the operands' products; the four axis facts of a record say which
coordinate of an operand index is the output's and which is the contraction's. -/

theorem lhsQ_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsQ_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsQ_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsQ_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- The query projection's product: row `p` of the left operand against column `e` of the right. -/
theorem matmulQ_apply (a : FVec Ideal S256x1024 .bf16) (b : FVec Ideal S1024x1024 .bf16) (p : Fin 256) (e : Fin 1024) :
    matmul dot_S256x1024_S1024x1024_S256x1024_1_0_0_1_n_n none a b (constant (F := Ideal) S256x1024 .f32 0x00000000#32) (ix2 p e)
      = ∑ k : Fin 1024, a (ix2 p k) * b (ix2 k e) := by
  refine (Ideal.matmul_constant_zero_apply dot_S256x1024_S1024x1024_S256x1024_1_0_0_1_n_n none a b (ix2 p e)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p e) ((contrEquiv1 dot_S256x1024_S1024x1024_S256x1024_1_0_0_1_n_n 1024 rfl rfl).symm k) = ix2 p k := funext fun c => Fin.ext (by
    match c with
    | ⟨0, _⟩ => exact lhsQ_0 _ _
    | ⟨1, _⟩ => exact (lhsQ_1 _ _).trans hk)
  have er : dot_S256x1024_S1024x1024_S256x1024_1_0_0_1_n_n.rhsIdx (ix2 p e) ((contrEquiv1 dot_S256x1024_S1024x1024_S256x1024_1_0_0_1_n_n 1024 rfl rfl).symm k) = ix2 k e := funext fun c => Fin.ext (by
    match c with
    | ⟨0, _⟩ => exact (rhsQ_0 _ _).trans hk
    | ⟨1, _⟩ => exact rhsQ_1 _ _)
  rw [el, er]

theorem lhsS_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhsS_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhsS_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhsS_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q
/-- The scores' product contracts the feature axis of BOTH operands: row `p` of the queries against row `e` of the keys. -/
theorem matmulS_apply (a : FVec Ideal S256x1024 .bf16) (b : FVec Ideal S2048x1024 .bf16) (p : Fin 256) (e : Fin 2048) :
    matmul dot_S256x1024_S2048x1024_S256x2048_1_1_0_0_n_n none a b (constant (F := Ideal) S256x2048 .f32 0x00000000#32) (ix2 p e)
      = ∑ k : Fin 1024, a (ix2 p k) * b (ix2 e k) := by
  refine (Ideal.matmul_constant_zero_apply dot_S256x1024_S2048x1024_S256x2048_1_1_0_0_n_n none a b (ix2 p e)).trans ?_
  rw [← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p e) ((contrEquiv1 dot_S256x1024_S2048x1024_S256x2048_1_1_0_0_n_n 1024 rfl rfl).symm k) = ix2 p k := funext fun c => Fin.ext (by
    match c with
    | ⟨0, _⟩ => exact lhsS_0 _ _
    | ⟨1, _⟩ => exact (lhsS_1 _ _).trans hk)
  have er : dot_S256x1024_S2048x1024_S256x2048_1_1_0_0_n_n.rhsIdx (ix2 p e) ((contrEquiv1 dot_S256x1024_S2048x1024_S256x2048_1_1_0_0_n_n 1024 rfl rfl).symm k) = ix2 e k := funext fun c => Fin.ext (by
    match c with
    | ⟨0, _⟩ => exact rhsS_0 _ _
    | ⟨1, _⟩ => exact (rhsS_1 _ _).trans hk)
  rw [el, er]

theorem lhsV_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhsV_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhsV_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhsV_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- The values' product: row `p` of the weights against column `e` of the values. -/
theorem matmulV_apply (a : FVec Ideal S256x2048 .bf16) (b : FVec Ideal S2048x1024 .bf16) (p : Fin 256) (e : Fin 1024) :
    matmul dot_S256x2048_S2048x1024_S256x1024_1_0_0_1_n_n none a b (constant (F := Ideal) S256x1024 .f32 0x00000000#32) (ix2 p e)
      = ∑ k : Fin 2048, a (ix2 p k) * b (ix2 k e) := by
  refine (Ideal.matmul_constant_zero_apply dot_S256x2048_S2048x1024_S256x1024_1_0_0_1_n_n none a b (ix2 p e)).trans ?_
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p e) ((contrEquiv1 dot_S256x2048_S2048x1024_S256x1024_1_0_0_1_n_n 2048 rfl rfl).symm k) = ix2 p k := funext fun c => Fin.ext (by
    match c with
    | ⟨0, _⟩ => exact lhsV_0 _ _
    | ⟨1, _⟩ => exact (lhsV_1 _ _).trans hk)
  have er : dot_S256x2048_S2048x1024_S256x1024_1_0_0_1_n_n.rhsIdx (ix2 p e) ((contrEquiv1 dot_S256x2048_S2048x1024_S256x1024_1_0_0_1_n_n 2048 rfl rfl).symm k) = ix2 k e := funext fun c => Fin.ext (by
    match c with
    | ⟨0, _⟩ => exact (rhsV_0 _ _).trans hk
    | ⟨1, _⟩ => exact rhsV_1 _ _)
  rw [el, er]

/-! ## A row statistic kept as a column, spread back over the row

The row maxima and row sums are vectors over the 256 rows; the body views each as a 256 × 1 column and broadcasts it along the
2048 keys. Read at (p, s) the result is the statistic of row p. -/

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row vector spread over the keys reads its row's entry. -/
theorem col_apply (c : FVec Ideal S256 .f32) (p : Fin 256) (s : Fin 2048) :
    broadcastTo S256x2048 (shapeCast S256x1 c shapeCasts_S256_S256x1) broadcasts_S256x1_S256x2048 (ix2 p s) = c (ix1 p) :=
  (broadcastTo_a1_ab_apply _ _ p s).trans (shapeCast_a_a1_apply c _ p 0)

/-! ## The two row reductions -/

/-- Row `p` with key coordinate `s` put back is the index (p, s). -/
theorem lift_row (p : Fin 256) (s : Fin 2048) : reduces_S256x2048_S256.lift (ix1 p) s = ix2 p s := by
  funext c
  match c with
  | ⟨0, _⟩ => rfl
  | ⟨1, _⟩ => rfl

/-- The maximum over the keys, from -∞, at row `p`. -/
theorem rowMax_apply (r : FVec Ideal S256x2048 .f32) (p : Fin 256) :
    multiReduction (F := Ideal) .maximumf [1] S256 r 0xFF800000#32 reduces_S256x2048_S256 (.inl rfl) rfl (ix1 p)
      = rowMax (fun s => r (ix2 p s)) := by
  refine (Ideal.multiReduction_maximumf_single r _ reduces_S256x2048_S256 _ _ (ix1 p)).trans ?_
  have e : r ∘ reduces_S256x2048_S256.lift (ix1 p) = fun s : Fin 2048 => r (ix2 p s) :=
    funext fun s => congrArg r (lift_row p s)
  rw [e]
  rfl

/-- The sum over the keys at row `p`. -/
theorem rowSum_apply (r : FVec Ideal S256x2048 .f32) (p : Fin 256) :
    multiReduction (F := Ideal) .add [1] S256 r 0x00000000#32 reduces_S256x2048_S256 (.inl rfl) rfl (ix1 p)
      = ∑ s : Fin 2048, r (ix2 p s) := by
  refine (Ideal.multiReduction_add_single r _ reduces_S256x2048_S256 _ _ (ix1 p)).trans ?_
  exact Finset.sum_congr rfl fun s _ => congrArg r (lift_row p s)

/-! ## The softmax of a score block along the keys -/

/-- The row maxima spread over the keys. -/
def maxCol (r : FVec Ideal S256x2048 .f32) : FVec Ideal S256x2048 .f32 :=
  broadcastTo S256x2048 (shapeCast S256x1
    (multiReduction (F := Ideal) .maximumf [1] S256 r 0xFF800000#32 reduces_S256x2048_S256 (.inl rfl) rfl) shapeCasts_S256_S256x1)
    broadcasts_S256x1_S256x2048
/-- The exponentials of the shifted scores. -/
def expBlk (r : FVec Ideal S256x2048 .f32) : FVec Ideal S256x2048 .f32 := exp (subf r (maxCol r))
/-- Their row sums spread over the keys. -/
def sumCol (r : FVec Ideal S256x2048 .f32) : FVec Ideal S256x2048 .f32 :=
  broadcastTo S256x2048 (shapeCast S256x1
    (multiReduction (F := Ideal) .add [1] S256 (expBlk r) 0x00000000#32 reduces_S256x2048_S256 (.inl rfl) rfl) shapeCasts_S256_S256x1)
    broadcasts_S256x1_S256x2048
/-- The weights: each exponential over its row's sum. -/
def smaxBlk (r : FVec Ideal S256x2048 .f32) : FVec Ideal S256x2048 .f32 := divf (expBlk r) (sumCol r)

theorem maxCol_apply (r : FVec Ideal S256x2048 .f32) (p : Fin 256) (s : Fin 2048) :
    maxCol r (ix2 p s) = rowMax (fun s' => r (ix2 p s')) :=
  (col_apply _ p s).trans (rowMax_apply r p)

theorem expBlk_apply (r : FVec Ideal S256x2048 .f32) (p : Fin 256) (s : Fin 2048) :
    expBlk r (ix2 p s) = Ideal.exp (r (ix2 p s) - rowMax (fun s' => r (ix2 p s'))) :=
  congrArg (fun m => Ideal.exp (r (ix2 p s) - m)) (maxCol_apply r p s)

theorem sumCol_apply (r : FVec Ideal S256x2048 .f32) (p : Fin 256) (s : Fin 2048) :
    sumCol r (ix2 p s) = ∑ k : Fin 2048, Ideal.exp (r (ix2 p k) - rowMax (fun s' => r (ix2 p s'))) :=
  ((col_apply _ p s).trans (rowSum_apply (expBlk r) p)).trans (Finset.sum_congr rfl fun k _ => expBlk_apply r p k)

/-- The weights at (p, s) are the softmax of row `p` at `s`. -/
theorem smaxBlk_apply (r : FVec Ideal S256x2048 .f32) (p : Fin 256) (s : Fin 2048) :
    smaxBlk r (ix2 p s) = softmax (fun s' => r (ix2 p s')) s := by
  show Ideal.div (expBlk r (ix2 p s)) (sumCol r (ix2 p s)) = _
  rw [expBlk_apply, sumCol_apply]
  rfl

/-! ## The query rows, the masked scores, and the output rows -/

/-- The query block: the loaded rows against the projection's weights, plus the bias row. -/
def qBlk (x0 : Vec Ideal S1x256x1024 .f32) (x1 : Vec Ideal S1024x1024 .bf16) (x2 : Vec Ideal S1x1024 .f32) :
    FVec Ideal S256x1024 .f32 :=
  addf (matmul dot_S256x1024_S1024x1024_S256x1024_1_0_0_1_n_n none
      (truncf .bf16 (shapeCast S256x1024 x0 shapeCasts_S1x256x1024_S256x1024) bitsLt_bf16_f32)
      (shapeCast S1024x1024 x1 shapeCasts_S1024x1024_S1024x1024 : FVec Ideal S1024x1024 .bf16)
      (constant (F := Ideal) S256x1024 .f32 0x00000000#32))
    (broadcastTo S256x1024 (shapeCast S1x1024 x2 shapeCasts_S1x1024_S1x1024) broadcasts_S1x1024_S256x1024)

theorem qBlk_apply (x0 : Vec Ideal S1x256x1024 .f32) (x1 : Vec Ideal S1024x1024 .bf16) (x2 : Vec Ideal S1x1024 .f32)
    (p : Fin 256) (d : Fin 1024) :
    qBlk x0 x1 x2 (ix2 p d) = (∑ j : Fin 1024, x0 (ix3 (0 : Fin 1) p j) * x1 (ix2 j d)) + x2 (ix2 (0 : Fin 1) d) := by
  unfold qBlk
  refine (addf_apply _ _ (ix2 p d)).trans (congrArg₂ (· + ·) ?_ ?_)
  · refine (matmulQ_apply _ _ p d).trans (Finset.sum_congr rfl fun j _ => congrArg₂ (· * ·) ?_ ?_)
    · exact shapeCast_1ab_ab_apply x0 _ p j
    · exact congrFun (shapeCast_self x1 _) (ix2 j d)
  · refine (broadcastTo_1b_ab_apply _ _ p d).trans ?_
    exact congrFun (shapeCast_self x2 _) (ix2 (0 : Fin 1) d)

/-- The masked score block of a query block `q` against the keys `k` under the mask words `m`. -/
def scoreBlk (q : FVec Ideal S256x1024 .f32) (k : FVec Ideal S2048x1024 .bf16) (m : IVec S256x2048 32) :
    FVec Ideal S256x2048 .f32 :=
  select (cmpi .eq m (broadcast S256x2048 0#32)) (broadcast S256x2048 (Scalar.ofBits (F := Ideal) .f32 0xCE6E6B28#32))
    (matmul dot_S256x1024_S2048x1024_S256x2048_1_1_0_0_n_n none (truncf .bf16 q bitsLt_bf16_f32) k
      (constant (F := Ideal) S256x2048 .f32 0x00000000#32))

theorem scoreBlk_apply (q : FVec Ideal S256x1024 .f32) (k : FVec Ideal S2048x1024 .bf16) (m : IVec S256x2048 32)
    (p : Fin 256) (s : Fin 2048) :
    scoreBlk q k m (ix2 p s) = score (fun d => q (ix2 p d)) (fun s' d => k (ix2 s' d)) (fun s' => m (ix2 p s')) s := by
  unfold scoreBlk score
  refine (select_apply _ _ _ (ix2 p s)).trans ?_
  exact congrArg (Scalar.select (IntOp.cmpi .eq (m (ix2 p s)) 0#32) negBig) (matmulS_apply _ _ p s)

/-- The output block: the weights against the values, plus the residual rows. -/
def outBlk (w : FVec Ideal S256x2048 .f32) (v : FVec Ideal S2048x1024 .bf16) (xr : FVec Ideal S256x1024 .f32) :
    FVec Ideal S256x1024 .f32 :=
  addf (matmul dot_S256x2048_S2048x1024_S256x1024_1_0_0_1_n_n none (truncf .bf16 w bitsLt_bf16_f32) v
      (constant (F := Ideal) S256x1024 .f32 0x00000000#32)) xr

theorem outBlk_apply (w : FVec Ideal S256x2048 .f32) (v : FVec Ideal S2048x1024 .bf16) (xr : FVec Ideal S256x1024 .f32)
    (p : Fin 256) (e : Fin 1024) :
    outBlk w v xr (ix2 p e) = (∑ s : Fin 2048, w (ix2 p s) * v (ix2 s e)) + xr (ix2 p e) := by
  unfold outBlk
  exact (addf_apply _ _ (ix2 p e)).trans (congrArg (· + xr (ix2 p e)) (matmulV_apply _ _ p e))

/-- What the body stores at row `p`, column `e` of its output block, from the blocks it loaded. -/
theorem pay_out (x0 : Vec Ideal S1x256x1024 .f32) (x1 : Vec Ideal S1024x1024 .bf16) (x2 : Vec Ideal S1x1024 .f32)
    (x3 x4 : Vec Ideal S1x2048x1024 .bf16) (x5 : Vec Ideal S1x256x2048 .i32) (p : Fin 256) (e : Fin 1024) :
    k1_pay1 (F := Ideal) (k1_pay2 (F := Ideal) x0 x1 x2 x3 x4 x5) (ix3 (0 : Fin 1) p e)
      = attnRow (fun d => (∑ j : Fin 1024, x0 (ix3 (0 : Fin 1) p j) * x1 (ix2 j d)) + x2 (ix2 (0 : Fin 1) d))
          (fun s d => x3 (ix3 (0 : Fin 1) s d)) (fun s d => x4 (ix3 (0 : Fin 1) s d))
          (fun s => x5 (ix3 (0 : Fin 1) p s)) (x0 (ix3 (0 : Fin 1) p e)) e := by
  -- the body's value is the output block of the softmaxed scores of the query block
  have hbody : k1_pay2 (F := Ideal) x0 x1 x2 x3 x4 x5
      = outBlk (smaxBlk (scoreBlk (qBlk x0 x1 x2) (shapeCast S2048x1024 x3 shapeCasts_S1x2048x1024_S2048x1024)
          (shapeCast S256x2048 x5 shapeCasts_S1x256x2048_S256x2048)))
        (shapeCast S2048x1024 x4 shapeCasts_S1x2048x1024_S2048x1024)
        (shapeCast S256x1024 x0 shapeCasts_S1x256x1024_S256x1024) := rfl
  unfold k1_pay1
  rw [hbody]
  refine (shapeCast_ab_1ab_apply _ _ (0 : Fin 1) p e).trans ?_
  refine (outBlk_apply _ _ _ p e).trans ?_
  unfold attnRow
  refine congrArg₂ (· + ·) (Finset.sum_congr rfl fun s _ => congrArg₂ (· * ·) ?_ ?_) ?_
  · refine (smaxBlk_apply _ p s).trans ?_
    refine congrArg (fun r => softmax r s) (funext fun s' => ?_)
    refine (scoreBlk_apply _ _ _ p s').trans ?_
    have hq : (fun d => qBlk x0 x1 x2 (ix2 p d))
        = fun d => (∑ j : Fin 1024, x0 (ix3 (0 : Fin 1) p j) * x1 (ix2 j d)) + x2 (ix2 (0 : Fin 1) d) :=
      funext fun d => qBlk_apply x0 x1 x2 p d
    have hk : (fun (s'' : Fin 2048) (d : Fin 1024) => shapeCast S2048x1024 x3 shapeCasts_S1x2048x1024_S2048x1024 (ix2 s'' d))
        = fun s'' d => x3 (ix3 (0 : Fin 1) s'' d) :=
      funext fun s'' => funext fun d => shapeCast_1ab_ab_apply x3 _ s'' d
    have hm : (fun s'' : Fin 2048 => shapeCast S256x2048 x5 shapeCasts_S1x256x2048_S256x2048 (ix2 p s''))
        = fun s'' => x5 (ix3 (0 : Fin 1) p s'') :=
      funext fun s'' => shapeCast_1ab_ab_apply x5 _ p s''
    rw [hq, hk, hm]
  · exact shapeCast_1ab_ab_apply x4 _ s e
  · exact shapeCast_1ab_ab_apply x0 _ p e

end Cert.CrossAttn.Blk

end
-- ==== Proof.AttnArr.lean ====
/-
  The attention kernel's result array after its 4 × 8 grid points, as a function of the six arrays it is entered with.
  Point t = 8·b + qi works on batch b and query rows 256·qi .. 256·qi + 255: it reads those rows of x and of the mask, all
  2048 key and value rows of batch b, and the query weights and bias whole, and writes the same rows of the result.
  So entry (b, T, e) of the result is `attnRow` of query row T's projection, batch b's keys and values, row T's mask
  words and the residual x[b, T, e]; the 32 blocks tile the [4, 2048, 1024] result.
-/
import proofs.«428873_j747324309856_3_alg».proof.Proof.Gen.KernelIdeal.Frame
import proofs.«428873_j747324309856_3_alg».proof.Proof.AttnBlock
import Idealize.ShloMosaic.Lib.Pipeline.Value
import Idealize.ShloMosaic.Lib.ValueIdx

set_option maxRecDepth 16384

noncomputable section

open scoped BigOperators

namespace Cert.CrossAttn.AttnArr

open Idealize.ShloMosaic Idealize.ShloMosaic.TcCoe Idealize.SL.Sem Idealize.ShloMosaic.ValueIdx
open Cert.KernelIdeal Cert.KernelIdeal.Gen Cert.CrossAttn

variable (V : (c : Dev nD) → (b : Ref sig .tc) → Buf (Elt Ideal) ((c : Thread nD τ).loc b))

/-- The result array from the arrays the kernel is entered with: x, the transposed query weights, the query bias as a
    row, the keys, the values, the mask. -/
def GO (X : S4x2048x1024.Idx → EReal) (WqT : S1024x1024.Idx → EReal) (Bq : S1x1024.Idx → EReal)
    (K Vv : S4x2048x1024.Idx → EReal) (M : S4x2048x2048.Idx → BitVec 32) : S4x2048x1024.Idx → EReal :=
  fun i => attnRow (fun d => (∑ j : Fin 1024, X (ix3 (i 0) (i 1) j) * WqT (ix2 j d)) + Bq (ix2 (0 : Fin 1) d))
    (fun s d => K (ix3 (i 0) s d)) (fun s d => Vv (ix3 (i 0) s d)) (fun s => M (ix3 (i 0) (i 1) s)) (X i) (i 2)

theorem hz2 : (![0, 0] : Fin 2 → Nat) = fun _ => 0 := funext fun a => by fin_cases a <;> rfl
theorem hz3 : (![0, 0, 0] : Fin 3 → Nat) = fun _ => 0 := funext fun a => by fin_cases a <;> rfl

theorem t_lt (t : Fin cfg1.N) : t.val < 32 := N_1 ▸ t.isLt

/-- The printed index maps over the grid: point t is batch t / 8, query tile t % 8. -/
theorem idx_facts : ∀ t : Fin cfg1.N,
    (win1_0.index t (0 : Fin 3) = t.val / 8 ∧ win1_0.index t (1 : Fin 3) = t.val % 8 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 3) = t.val / 8 ∧ win1_3.index t (1 : Fin 3) = 0 ∧ win1_3.index t (2 : Fin 3) = 0)
    ∧ (win1_4.index t (0 : Fin 3) = t.val / 8 ∧ win1_4.index t (1 : Fin 3) = 0 ∧ win1_4.index t (2 : Fin 3) = 0)
    ∧ (win1_5.index t (0 : Fin 3) = t.val / 8 ∧ win1_5.index t (1 : Fin 3) = t.val % 8 ∧ win1_5.index t (2 : Fin 3) = 0)
    ∧ (win1_6.index t (0 : Fin 3) = t.val / 8 ∧ win1_6.index t (1 : Fin 3) = t.val % 8 ∧ win1_6.index t (2 : Fin 3) = 0) :=
  (by decide +kernel : ∀ t : Fin grid1.N, _)

/-! ## The blocks a point reads, in the arrays' own coordinates -/

theorem blk_x (c : Dev nD) (t : Fin cfg1.N) (p : Fin 256) (j : Fin 1024) :
    iblk1 V c 0 t (ix3 (0 : Fin 1) p j) = (V c main_arg0 : S4x2048x1024.Idx → EReal)
      (ix3 (⟨t.val / 8, by have := t_lt t; omega⟩ : Fin 4) (⟨t.val % 8 * 256 + p.val, by omega⟩ : Fin 2048) j) := by
  show (V c main_arg0 : S4x2048x1024.Idx → EReal) (((cfg1.win 0).blk t).view.emb (ix3 (0 : Fin 1) p j)) = _
  refine congrArg _ (funext fun a => Fin.ext ?_)
  obtain ⟨⟨e0, e1, e2⟩, -⟩ := idx_facts t
  match a with
  | ⟨0, _⟩ => show win1_0.index t (0 : Fin 3) * 1 + 1 * 0 = t.val / 8; rw [e0]; omega
  | ⟨1, _⟩ => show win1_0.index t (1 : Fin 3) * 256 + 1 * p.val = t.val % 8 * 256 + p.val; rw [e1]; omega
  | ⟨2, _⟩ => show win1_0.index t (2 : Fin 3) * 1024 + 1 * j.val = j.val; rw [e2]; omega

theorem blk_wq (c : Dev nD) (t : Fin cfg1.N) (j d : Fin 1024) :
    iblk1 V c 1 t (ix2 j d) = (V c main_v1 : S1024x1024.Idx → EReal) (ix2 j d) := by
  show (V c main_v1 : S1024x1024.Idx → EReal) (((cfg1.win 1).blk t).view.emb (ix2 j d)) = _
  refine congrArg _ (funext fun a => Fin.ext ?_)
  obtain ⟨-, ⟨e0, e1⟩, -⟩ := idx_facts t
  match a with
  | ⟨0, _⟩ => show win1_1.index t (0 : Fin 2) * 1024 + 1 * j.val = j.val; rw [e0]; omega
  | ⟨1, _⟩ => show win1_1.index t (1 : Fin 2) * 1024 + 1 * d.val = d.val; rw [e1]; omega

theorem blk_bq (c : Dev nD) (t : Fin cfg1.N) (d : Fin 1024) :
    iblk1 V c 2 t (ix2 (0 : Fin 1) d) = (V c main_v7 : S1x1024.Idx → EReal) (ix2 (0 : Fin 1) d) := by
  show (V c main_v7 : S1x1024.Idx → EReal) (((cfg1.win 2).blk t).view.emb (ix2 (0 : Fin 1) d)) = _
  refine congrArg _ (funext fun a => Fin.ext ?_)
  obtain ⟨-, -, ⟨e0, e1⟩, -⟩ := idx_facts t
  match a with
  | ⟨0, _⟩ => show win1_2.index t (0 : Fin 2) * 1 + 1 * 0 = 0; rw [e0]
  | ⟨1, _⟩ => show win1_2.index t (1 : Fin 2) * 1024 + 1 * d.val = d.val; rw [e1]; omega

theorem blk_k (c : Dev nD) (t : Fin cfg1.N) (s : Fin 2048) (d : Fin 1024) :
    iblk1 V c 3 t (ix3 (0 : Fin 1) s d) = (V c main_v12 : S4x2048x1024.Idx → EReal)
      (ix3 (⟨t.val / 8, by have := t_lt t; omega⟩ : Fin 4) s d) := by
  show (V c main_v12 : S4x2048x1024.Idx → EReal) (((cfg1.win 3).blk t).view.emb (ix3 (0 : Fin 1) s d)) = _
  refine congrArg _ (funext fun a => Fin.ext ?_)
  obtain ⟨-, -, -, ⟨e0, e1, e2⟩, -⟩ := idx_facts t
  match a with
  | ⟨0, _⟩ => show win1_3.index t (0 : Fin 3) * 1 + 1 * 0 = t.val / 8; rw [e0]; omega
  | ⟨1, _⟩ => show win1_3.index t (1 : Fin 3) * 2048 + 1 * s.val = s.val; rw [e1]; omega
  | ⟨2, _⟩ => show win1_3.index t (2 : Fin 3) * 1024 + 1 * d.val = d.val; rw [e2]; omega

theorem blk_v (c : Dev nD) (t : Fin cfg1.N) (s : Fin 2048) (d : Fin 1024) :
    iblk1 V c 4 t (ix3 (0 : Fin 1) s d) = (V c main_v13 : S4x2048x1024.Idx → EReal)
      (ix3 (⟨t.val / 8, by have := t_lt t; omega⟩ : Fin 4) s d) := by
  show (V c main_v13 : S4x2048x1024.Idx → EReal) (((cfg1.win 4).blk t).view.emb (ix3 (0 : Fin 1) s d)) = _
  refine congrArg _ (funext fun a => Fin.ext ?_)
  obtain ⟨-, -, -, -, ⟨e0, e1, e2⟩, -⟩ := idx_facts t
  match a with
  | ⟨0, _⟩ => show win1_4.index t (0 : Fin 3) * 1 + 1 * 0 = t.val / 8; rw [e0]; omega
  | ⟨1, _⟩ => show win1_4.index t (1 : Fin 3) * 2048 + 1 * s.val = s.val; rw [e1]; omega
  | ⟨2, _⟩ => show win1_4.index t (2 : Fin 3) * 1024 + 1 * d.val = d.val; rw [e2]; omega

theorem blk_m (c : Dev nD) (t : Fin cfg1.N) (p : Fin 256) (s : Fin 2048) :
    iblk1 V c 5 t (ix3 (0 : Fin 1) p s) = (V c main_arg2 : S4x2048x2048.Idx → BitVec 32)
      (ix3 (⟨t.val / 8, by have := t_lt t; omega⟩ : Fin 4) (⟨t.val % 8 * 256 + p.val, by omega⟩ : Fin 2048) s) := by
  show (V c main_arg2 : S4x2048x2048.Idx → BitVec 32) (((cfg1.win 5).blk t).view.emb (ix3 (0 : Fin 1) p s)) = _
  refine congrArg _ (funext fun a => Fin.ext ?_)
  obtain ⟨-, -, -, -, -, ⟨e0, e1, e2⟩, -⟩ := idx_facts t
  match a with
  | ⟨0, _⟩ => show win1_5.index t (0 : Fin 3) * 1 + 1 * 0 = t.val / 8; rw [e0]; omega
  | ⟨1, _⟩ => show win1_5.index t (1 : Fin 3) * 256 + 1 * p.val = t.val % 8 * 256 + p.val; rw [e1]; omega
  | ⟨2, _⟩ => show win1_5.index t (2 : Fin 3) * 2048 + 1 * s.val = s.val; rw [e2]; omega

/-- Where entry (0, p, e) of point t's output block sits in the result: batch t / 8, row 256·(t % 8) + p. -/
theorem emb_o (t : Fin cfg1.N) (p : Fin 256) (e : Fin 1024) :
    ((cfg1.win 6).blk t).view.emb (ix3 (0 : Fin 1) p e)
      = (ix3 (⟨t.val / 8, by have := t_lt t; omega⟩ : Fin 4) (⟨t.val % 8 * 256 + p.val, by omega⟩ : Fin 2048) e : S4x2048x1024.Idx) := by
  refine funext fun a => Fin.ext ?_
  obtain ⟨-, -, -, -, -, -, ⟨e0, e1, e2⟩⟩ := idx_facts t
  match a with
  | ⟨0, _⟩ => show win1_6.index t (0 : Fin 3) * 1 + 1 * 0 = t.val / 8; rw [e0]; omega
  | ⟨1, _⟩ => show win1_6.index t (1 : Fin 3) * 256 + 1 * p.val = t.val % 8 * 256 + p.val; rw [e1]; omega
  | ⟨2, _⟩ => show win1_6.index t (2 : Fin 3) * 1024 + 1 * e.val = e.val; rw [e2]; omega

/-! ## What a point writes back is its block of the whole-array function -/

theorem flushed_o (c : Dev nD) (t : Fin cfg1.N) :
    (dat1 V c).flushed 6 t = ((cfg1.win 6).blk t).view.read (Elt Ideal)
      (GO (V c main_arg0) (V c main_v1) (V c main_v7) (V c main_v12) (V c main_v13) (V c main_arg2)) := by
  show (cfg1.win 6).cut (grid1.coords t) ((dat1 V c).after 6 t) = _
  rw [after1_6]
  unfold out1_6
  rw [View.canon_unit_zero hz3]
  simp only [View.ld_unit_zero (S := S1x256x1024) hz3, View.ld_unit_zero (S := S1024x1024) hz2, View.ld_unit_zero (S := S1x1024) hz2,
    View.ld_unit_zero (S := S1x2048x1024) hz3, View.ld_unit_zero (S := S1x256x2048) hz3]
  funext j
  obtain ⟨u, p, e, rfl⟩ : ∃ (u : Fin 1) (p : Fin 256) (e : Fin 1024), j = ix3 u p e := ⟨j 0, j 1, j 2, eq_ix3 j⟩
  obtain rfl : u = 0 := Subsingleton.elim _ _
  show k1_pay1 (F := Ideal) (k1_pay2 (F := Ideal) (iblk1 V c 0 t) (iblk1 V c 1 t) (iblk1 V c 2 t) (iblk1 V c 3 t) (iblk1 V c 4 t) (iblk1 V c 5 t)) (ix3 (0 : Fin 1) p e)
    = GO (V c main_arg0) (V c main_v1) (V c main_v7) (V c main_v12) (V c main_v13) (V c main_arg2) (((cfg1.win 6).blk t).view.emb (ix3 (0 : Fin 1) p e))
  rw [emb_o t p e]
  refine (Blk.pay_out (iblk1 V c 0 t) (iblk1 V c 1 t) (iblk1 V c 2 t) (iblk1 V c 3 t) (iblk1 V c 4 t) (iblk1 V c 5 t) p e).trans ?_
  simp only [blk_x V c t, blk_wq V c t, blk_bq V c t, blk_k V c t, blk_v V c t, blk_m V c t]
  rfl

/-! ## The 32 blocks tile the result -/

theorem mem_blk_o (t : Fin cfg1.N) (i : S4x2048x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v14).slice (win1_6.rect t)).set ↔ _
  rw [View.set_slice_whole, Rect.mem_set_unit]
  exact Iff.rfl

theorem cover_o (i : S4x2048x1024.Idx) : ∃ t : Fin cfg1.N, (cfg1.win 6).flush t = true ∧ i ∈ ((cfg1.win 6).blk t).view.set := by
  have hi0 : (i 0).val < 4 := (i 0).isLt
  have hi1 : (i 1).val < 2048 := (i 1).isLt
  have hi2 : (i 2).val < 1024 := (i 2).isLt
  let t : Fin cfg1.N := ⟨(i 0).val * 8 + (i 1).val / 256, by rw [show cfg1.N = 32 from N_1]; omega⟩
  obtain ⟨-, -, -, -, -, -, ⟨e0, e1, e2⟩⟩ := idx_facts t
  have ht : t.val = (i 0).val * 8 + (i 1).val / 256 := rfl
  refine ⟨t, flush1_6 t, (mem_blk_o t i).mpr fun a => ?_⟩
  match a with
  | ⟨0, _⟩ => show win1_6.index t (0 : Fin 3) * 1 ≤ (i 0).val ∧ (i 0).val < win1_6.index t (0 : Fin 3) * 1 + 1; rw [e0, ht]; omega
  | ⟨1, _⟩ => show win1_6.index t (1 : Fin 3) * 256 ≤ (i 1).val ∧ (i 1).val < win1_6.index t (1 : Fin 3) * 256 + 256; rw [e1, ht]; omega
  | ⟨2, _⟩ => show win1_6.index t (2 : Fin 3) * 1024 ≤ (i 2).val ∧ (i 2).val < win1_6.index t (2 : Fin 3) * 1024 + 1024; rw [e2]; omega

/-! ## The result array after the run -/

theorem final_o (c : Dev nD) : ((dat1 V c).arrAt 6 cfg1.N : S4x2048x1024.Idx → EReal)
    = GO (V c main_arg0) (V c main_v1) (V c main_v7) (V c main_v12) (V c main_v13) (V c main_arg2) :=
  (dat1 V c).arrAt_eq_of_cover 6 (GO (V c main_arg0) (V c main_v1) (V c main_v7) (V c main_v12) (V c main_v13) (V c main_arg2))
    (fun t _ => flushed_o V c t) cover_o

end Cert.CrossAttn.AttnArr

end
-- ==== Proof.KernelValue.lean ====
/-
  The kernel program's result array is the cross-attention function `attn` of its nine arguments.
  The second kernel's result is `attnRow` of what it is entered with; what it is entered with is x and the mask as
  launched, Wqᵀ and bq, and the first kernel's two results viewed per batch; and the first kernel's results are y against
  the fused [Wkᵀ | Wvᵀ] plus the fused bias, i.e. the two linear layers `lin y Wk bk` and `lin y Wv bv`.
-/
import proofs.«428873_j747324309856_3_alg».proof.Proof.Spec
import proofs.«428873_j747324309856_3_alg».proof.Proof.HostVals
import proofs.«428873_j747324309856_3_alg».proof.Proof.KvArr
import proofs.«428873_j747324309856_3_alg».proof.Proof.AttnArr
import proofs.«428873_j747324309856_3_alg».proof.Proof.KernelRun

set_option maxRecDepth 16384

noncomputable section

open scoped BigOperators

namespace Cert.CrossAttn.Kernel

open Idealize.ShloMosaic Idealize.ShloMosaic.TcCoe Idealize.SL.Sem Idealize.ShloMosaic.ValueIdx
open Cert.KernelIdeal Cert.KernelIdeal.Gen Cert.CrossAttn Cert.CrossAttn.Host

variable (m : (ℓ : Loc nD τ sig) → Buf (Elt Ideal) ℓ) (ρ : Dev nD → PrngReg)

/-- The keys the attention kernel is entered with are the linear layer of y with Wk, bk. -/
theorem keys_eq (c : Dev nD) (b : Fin 4) (s : Fin 2048) (d : Fin 1024) :
    e3K m ρ c (ix3 b s d) = lin (aY m c) (aWk m c) (aBk m c) b s d := by
  rw [V3_k]
  have hf : r1K m ρ c = KvArr.GK (e1Y m ρ c) (e1W m ρ c) (e1B m ρ c) := KvArr.final_k (V1 m ρ) c
  rw [hf]
  show (∑ d' : Fin 1024, e1Y m ρ c (ix2 (⟨b.val * 2048 + s.val, by omega⟩ : Fin 8192) d') * e1W m ρ c (ix2 d' (⟨d.val, by omega⟩ : Fin 2048)))
      + e1B m ρ c (ix2 (0 : Fin 1) (⟨d.val, by omega⟩ : Fin 2048)) = _
  rw [V1_b_lo]
  show (∑ d' : Fin 1024, _) + _ = (∑ d' : Fin 1024, aY m c (ix3 b s d') * aWk m c (ix2 d d')) + aBk m c (ix1 d)
  exact congrArg (· + aBk m c (ix1 d)) (Finset.sum_congr rfl fun d' _ => by rw [V1_y, V1_w_lo])

/-- The values the attention kernel is entered with are the linear layer of y with Wv, bv. -/
theorem vals_eq (c : Dev nD) (b : Fin 4) (s : Fin 2048) (d : Fin 1024) :
    e3V m ρ c (ix3 b s d) = lin (aY m c) (aWv m c) (aBv m c) b s d := by
  rw [V3_v]
  have hf : r1V m ρ c = KvArr.GV (e1Y m ρ c) (e1W m ρ c) (e1B m ρ c) := KvArr.final_v (V1 m ρ) c
  rw [hf]
  show (∑ d' : Fin 1024, e1Y m ρ c (ix2 (⟨b.val * 2048 + s.val, by omega⟩ : Fin 8192) d') * e1W m ρ c (ix2 d' (⟨1024 + d.val, by omega⟩ : Fin 2048)))
      + e1B m ρ c (ix2 (0 : Fin 1) (⟨1024 + d.val, by omega⟩ : Fin 2048)) = _
  rw [V1_b_hi]
  show (∑ d' : Fin 1024, _) + _ = (∑ d' : Fin 1024, aY m c (ix3 b s d') * aWv m c (ix2 d d')) + aBv m c (ix1 d)
  exact congrArg (· + aBv m c (ix1 d)) (Finset.sum_congr rfl fun d' _ => by rw [V1_y, V1_w_hi])

/-- The query rows the attention kernel forms are the linear layer of x with Wq, bq. -/
theorem query_eq (c : Dev nD) (b : Fin 4) (T : Fin 2048) :
    (fun d : Fin 1024 => (∑ j : Fin 1024, aX m c (ix3 b T j) * e3Wq m ρ c (ix2 j d)) + e3Bq m ρ c (ix2 (0 : Fin 1) d))
      = lin (aX m c) (aWq m c) (aBq m c) b T := by
  funext d
  rw [V3_bq]
  show (∑ j : Fin 1024, _) + _ = (∑ j : Fin 1024, aX m c (ix3 b T j) * aWq m c (ix2 d j)) + aBq m c (ix1 d)
  exact congrArg (· + aBq m c (ix1 d)) (Finset.sum_congr rfl fun j _ => by rw [V3_wq])

/-- The result array at the run's end is `attn` of the arguments. -/
theorem out_eq (c : Dev nD) :
    (W4 m ρ c (Proc.devRef .tc main_v14) : S4x2048x1024.Idx → EReal)
      = attn (aX m c) (aY m c) (aMask m c) (aWq m c) (aBq m c) (aWk m c) (aBk m c) (aWv m c) (aBv m c) := by
  refine (W4_arr m ρ c 6).trans ?_
  have hf : ((dat1 (V3 m ρ) c).arrAt 6 cfg1.N : S4x2048x1024.Idx → EReal)
      = AttnArr.GO (e3X m ρ c) (e3Wq m ρ c) (e3Bq m ρ c) (e3K m ρ c) (e3V m ρ c) (e3M m ρ c) := AttnArr.final_o (V3 m ρ) c
  refine hf.trans ?_
  funext i
  obtain ⟨b, T, e, rfl⟩ : ∃ (b : Fin 4) (T : Fin 2048) (e : Fin 1024), i = ix3 b T e := ⟨i 0, i 1, i 2, eq_ix3 i⟩
  show attnRow (fun d : Fin 1024 => (∑ j : Fin 1024, e3X m ρ c (ix3 b T j) * e3Wq m ρ c (ix2 j d)) + e3Bq m ρ c (ix2 (0 : Fin 1) d))
      (fun s d => e3K m ρ c (ix3 b s d)) (fun s d => e3V m ρ c (ix3 b s d)) (fun s => e3M m ρ c (ix3 b T s)) (e3X m ρ c (ix3 b T e)) e
    = attnRow (lin (aX m c) (aWq m c) (aBq m c) b T) (lin (aY m c) (aWk m c) (aBk m c) b) (lin (aY m c) (aWv m c) (aBv m c) b)
      (fun s => aMask m c (ix3 b T s)) (aX m c (ix3 b T e)) e
  rw [V3_x, V3_mask, query_eq m ρ c b T,
    show (fun (s : Fin 2048) (d : Fin 1024) => e3K m ρ c (ix3 b s d)) = lin (aY m c) (aWk m c) (aBk m c) b
      from funext fun s => funext fun d => keys_eq m ρ c b s d,
    show (fun (s : Fin 2048) (d : Fin 1024) => e3V m ρ c (ix3 b s d)) = lin (aY m c) (aWv m c) (aBv m c) b
      from funext fun s => funext fun d => vals_eq m ρ c b s d]

/-- The kernel program's run with its result named: every weakly fair execution terminates, nothing faulting, the result
    array at `attn` of the arguments and the arguments unchanged. -/
theorem run : θ_run defs (onTc (τ := τ) (main (F := Ideal))) ⟨m, fun _ => 0, ρ⟩ (fun r => ∀ c : Dev nD,
      r.2.mem ((c.tc : Thread nD τ).loc main_v14)
        = attn (aX m c) (aY m c) (aMask m c) (aWq m c) (aBq m c) (aWk m c) (aBk m c) (aWv m c) (aBv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_eq m ρ c), (h c).2⟩) (Cert.KernelIdeal.GenRun.run_out m ρ)

end Cert.CrossAttn.Kernel

end
-- ==== Proof.lean ====
/-
  The certificate of a tiled cross-attention kernel against its whole-array reference, over the extended reals.

  Both programs compute, for x, y : [4, 2048, 1024], an integer mask [4, 2048, 2048] and three linear layers (Wq, bq),
  (Wk, bk), (Wv, bv):   out = softmax(mask-filled (x·Wqᵀ + bq)(y·Wkᵀ + bk)ᵀ) (y·Wvᵀ + bv) + x,
  the fill -1e9 where the mask word is 0 and the softmax along the key axis, shifted by the row maximum.
  The kernel does it in two launches: one fused projection of y against [Wkᵀ | Wvᵀ] over 16 row tiles, and one
  attention call over 4 batches × 8 query tiles that projects its own query rows, scores them against the batch's 2048
  keys, masks, normalises and combines with the values; the reference does it with whole-array contractions and a softmax along the keys.
  At the ideal values the narrowing casts are the identity and every product and sum is exact, so the two are the same
  function `Cert.CrossAttn.attn` of the nine arguments, index by index: the reference by reading its host operations one
  at a time (Proof/RefValue.lean), the kernel by reading each body's stored value at an index (Proof/KvBlock.lean,
  Proof/AttnBlock.lean), the host operations between (Proof/HostVals.lean) and the tiles' union (Proof/KvArr.lean,
  Proof/AttnArr.lean, Proof/KernelValue.lean). No law of arithmetic beyond that reading is used, so the precondition
  (finite inputs) is never opened. The three frames are the generated ones (the reference's is its generated run with the
  result dropped) and the idealization rewrote nothing.
-/
import proofs.«428873_j747324309856_3_alg».proof.Defs
import proofs.«428873_j747324309856_3_alg».proof.Proof.Gen.Kernel
import proofs.«428873_j747324309856_3_alg».proof.Proof.Gen.Kernel.Skeleton
import proofs.«428873_j747324309856_3_alg».proof.Proof.Gen.Kernel.Launch
import proofs.«428873_j747324309856_3_alg».proof.Proof.Gen.Kernel.Points
import proofs.«428873_j747324309856_3_alg».proof.Proof.Gen.Kernel.Frame
import proofs.«428873_j747324309856_3_alg».proof.Proof.Gen.KernelIdeal
import proofs.«428873_j747324309856_3_alg».proof.Proof.Gen.KernelIdeal.Skeleton
import proofs.«428873_j747324309856_3_alg».proof.Proof.Gen.KernelIdeal.Launch
import proofs.«428873_j747324309856_3_alg».proof.Proof.Gen.KernelIdeal.Points
import proofs.«428873_j747324309856_3_alg».proof.Proof.Gen.KernelIdeal.Frame
import proofs.«428873_j747324309856_3_alg».proof.Proof.Gen.ReferenceIdeal
import proofs.«428873_j747324309856_3_alg».proof.Proof.Gen.ReferenceIdeal.Run
import proofs.«428873_j747324309856_3_alg».proof.Proof.Gen.ReferenceIdeal.Read
import proofs.«428873_j747324309856_3_alg».proof.Proof.Gen.Pre_finite_inputs
import proofs.«428873_j747324309856_3_alg».proof.Proof.Spec
import proofs.«428873_j747324309856_3_alg».proof.Proof.RefValue
import proofs.«428873_j747324309856_3_alg».proof.Proof.KernelValue
import Idealize.ShloMosaic.Adequacy
import Idealize.ShloMosaic.Init

noncomputable section

namespace Cert.Proof

open Idealize.ShloMosaic Idealize.SL.Sem Cert.Kernel

namespace CrossAttnClaims

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `attn` of arguments that agree. -/
theorem algebraic : Cert.algebraic_KernelIdeal_ReferenceIdeal := by
  intro m ρ m' ρ' _ hagree
  refine ⟨_, Cert.CrossAttn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.CrossAttn.Ref.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

end CrossAttnClaims

theorem claim : Cert.Claim := ⟨Cert.Kernel.Gen.facts, Cert.KernelIdeal.Gen.facts, Cert.ReferenceIdeal.Gen.facts, Cert.Pre_finite_inputs.Gen.facts,
  CrossAttnClaims.frame_k, CrossAttnClaims.frame_ki, CrossAttnClaims.frame_ri, trivial, CrossAttnClaims.algebraic⟩

end Cert.Proof

end
